-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S1x10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S10000x128 : Shape := ⟨2, ![10000, 128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 12
  | .vmem => 16
  | .smem => 0
  | _ => 0

abbrev bufTy : (tb : Table) → Fin (tcTables nBuf tb) → BufTy
  | .hbm, ⟨0, _⟩ => ⟨S1x10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S1x10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S400x10000, .f32⟩
  | .local _ .vmem, ⟨4, _⟩ => ⟨S400x10000, .f32⟩
  | .local _ .vmem, ⟨5, _⟩ => ⟨S400x128, .f32⟩
  | .local _ .vmem, ⟨6, _⟩ => ⟨S400x128, .f32⟩
  | .local _ .vmem, ⟨7, _⟩ => ⟨S10000x128, .bf16⟩
  | .local _ .vmem, ⟨8, _⟩ => ⟨S10000x128, .f32⟩
  | .local _ .vmem, ⟨9, _⟩ => ⟨S128x128, .f32⟩
  | .local _ .vmem, ⟨10, _⟩ => ⟨S1x128, .f32⟩
  | .local _ .vmem, ⟨11, _⟩ => ⟨S400x10000, .f32⟩
  | .local _ .vmem, ⟨12, _⟩ => ⟨S400x10000, .f32⟩
  | .local _ .vmem, ⟨13, _⟩ => ⟨S400x128, .f32⟩
  | .local _ .vmem, ⟨14, _⟩ => ⟨S400x128, .f32⟩
  | .local _ .vmem, ⟨15, _⟩ => ⟨S10000x128, .bf16⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x10000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S1x10000x128_S10000x128 : S1x10000x128.ShapeCasts S10000x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S400x128_S400x128_0_0 : ∀ a, (![0, 0] : Fin 2 → Nat) a + S400x128.size a ≤ S400x128.size a
  h_S400x128 : 0 < S400x128.numel
  bcast_S10000x128_S1x10000x128_1_2 : S10000x128.BroadcastsInDim S1x10000x128 (![1, 2] : Fin 2 → Fin S1x10000x128.rank)
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S10000x128.size a
  hwx1_0 : ∀ i : grid1.Coords, EltTy.bits .f32 = 32 ∨ (Rect.block (s := S10000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x10000.size a ≤ S10000x10000.size a
  hwx1_3 : ∀ i : grid1.Coords, EltTy.bits .f32 = 32 ∨ (Rect.block (s := S10000x10000) S400x10000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S10000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S400x10000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S10000x128 : Shape := ⟨2, ![10000, 128]⟩
abbrev S1x128 : Shape := ⟨2, ![1, 128]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000x128, .f32⟩
  | .hbm, ⟨22, _⟩ => ⟨S10000x128, .f32⟩
  | .hbm, ⟨23, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call1_cst : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  shapeCasts_S1x10000x128_S10000x128 : S1x10000x128.ShapeCasts S10000x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S10000x128_S1x10000x128_1_2 : S10000x128.BroadcastsInDim S1x10000x128 (![1, 2] : Fin 2 → Fin S1x10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsBody0.lean ====
/-
  Layer 0 of the word-level kernel, at the contents `V` its region is entered with.

  The grid has 25 points; point t multiplies rows 400t … 400t+399 of the adjacency matrix with the
  node features. The features x·W + b are computed once, at point 0, into a scratch buffer that
  every point then reads: after EVERY point the scratch holds that one array (`fts0`), which does
  not depend on the point. So the region's invariant is: before point 0 the scratch is anything;
  from then on it holds `fts0`. Point t leaves in the output block the clipped product of its
  adjacency rows with `fts0`.
-/
import proofs.«142951_g14259291422968_cont_week2b_117_5_alg».proof.Proof.Gen.Kernel.Launch
import proofs.«142951_g14259291422968_cont_week2b_117_5_alg».proof.Proof.Gen.Kernel.Skeleton
import proofs.«142951_g14259291422968_cont_week2b_117_5_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch -/

/-- The body's one branch condition, from the grid coordinate: the coordinate compared with zero, the bit widened
    and compared with zero again. -/
abbrev cond0 (i : grid0.Coords) : Prop :=
  (Scalar.cmpi .ne (Scalar.extui (Scalar.cmpi .eq (BitVec.ofNat 32 (i 0).val) 0#32)) 0#32) = 1#1

/-- It holds at the first point and at no other: decided over the 25 points. -/
theorem hcond0 : ∀ t : Fin cfg0.N, cond0 (grid0.coords t) ↔ t.val = 0 :=
  (by decide +kernel : ∀ t : Fin grid0.N, cond0 (grid0.coords t) ↔ t.val = 0)

/-! ## Whole-buffer accesses

Every load and store of the body goes through the rectangle that is the whole buffer, at the origin. -/

/-- The offsets of a rank-2 access at the origin are the zero function. -/
theorem hz0 : (![0, 0] : Fin 2 → Nat) = fun _ => 0 := funext fun a => by fin_cases a <;> rfl

/-- A load through the whole-buffer rectangle at the origin reads the buffer's contents. -/
theorem load_whole0 {Val : EltTy → Type} {sg : RefSig} {κ : Kind} {sp : Space} {S : Shape} {e : EltTy}
    (v : View sg κ sp S e) (f : v.ty.Contents Val) {off : Fin S.rank → Nat} (hz : off = fun _ => 0)
    (inb : ∀ a, off a + S.size a ≤ S.size a) :
    v.readAt Val (Rect.unit off S.size inb).toLoadRect f = v.read Val f :=
  (View.readAt_eq_ld v f (Rect.unit off S.size inb)).trans (View.ld_unit_zero hz inb _)

/-- One store through it, over any earlier contents, reads back as the stored payload: its one piece holds every index. -/
theorem read_store_whole0 {Val : EltTy → Type} [∀ e, Nonempty (Val e)] {sg : RefSig} {κ : Kind} {sp : Space} {S : Shape} {e : EltTy}
    (v : View sg κ sp S e) (f : v.ty.Contents Val) {off : Fin S.rank → Nat} (hz : off = fun _ => 0)
    (inb : ∀ a, off a + S.size a ≤ S.size a) (p : S.Idx → Val e) :
    v.read Val (v.writes Val f [(⟨Rect.unit off S.size inb, p⟩ : View.Piece Val S e)]) = p := by
  rw [View.read_writes_eq_canon v f _ (fun y => ⟨_, List.mem_singleton_self _, View.mem_set_unit_zero hz inb y⟩),
    View.canon_unit_zero hz inb p]

/-! ## The body's triple, at the first point and at a later one -/

set_option maxHeartbeats 1000000 in
/-- AT THE FIRST POINT (the branch taken). The feature, weight and bias buffers at `x`, `w`, `b`, the adjacency tile at `a`,
    the output tile and the scratch at anything: the body stores `k0_pay1 x w b` whole into the scratch, reads it back,
    and stores `k0_pay2 a (k0_pay1 x w b)` whole into the output tile; the four inputs are left as they were. -/
theorem sound_kernel0_first (c : Dev nD) (E : Set ℕ) (i : grid0.Coords) (hc : cond0 i)
    (mx : Memref sig .tc .vmem S10000x128 .f32) (hmx : mx.IsWhole) (mw : Memref sig .tc .vmem S128x128 .f32) (hmw : mw.IsWhole)
    (mb : Memref sig .tc .vmem S1x128 .f32) (hmb : mb.IsWhole) (ma : Memref sig .tc .vmem S400x10000 .f32) (hma : ma.IsWhole)
    (mo : Memref sig .tc .vmem S400x128 .f32) (hmo : mo.IsWhole) (ms : Memref sig .tc .vmem S10000x128 .bf16) (hms : ms.IsWhole)
    (x : Vec F S10000x128 .f32) (w : Vec F S128x128 .f32) (b : Vec F S1x128 .f32) (a : Vec F S400x10000 .f32)
    (K : PUnit → sProp 𝕄) :
    iprop(owns (c : Thread nD τ) mx fullShare x ∗ owns (c : Thread nD τ) mw fullShare w ∗ owns (c : Thread nD τ) mb fullShare b
        ∗ owns (c : Thread nD τ) ma fullShare a ∗ (∃ d, owns (c : Thread nD τ) mo fullShare d) ∗ (∃ d, owns (c : Thread nD τ) ms fullShare d)
        ∗ (iprop(owns (c : Thread nD τ) mx fullShare x ∗ owns (c : Thread nD τ) mw fullShare w ∗ owns (c : Thread nD τ) mb fullShare b
            ∗ owns (c : Thread nD τ) ma fullShare a ∗ owns (c : Thread nD τ) mo fullShare (k0_pay2 a (k0_pay1 x w b))
            ∗ owns (c : Thread nD τ) ms fullShare (k0_pay1 x w b)) -∗ K ⟨⟩))
      ⊢ wp frame (wpE (defs₀ (F := F)) Variants.none c none) E (cc0__layer_body i mx hmx mw hmw mb hmb ma hma mo hmo ms hms) K := by
  simp only [cc0__layer_body_eq_skeleton]; unfold cc0__layer_body_skel
  unfold owns
  iintro ⟨⟨%fx, %hfx, Hx⟩, ⟨%fw, %hfw, Hw⟩, ⟨%fb, %hfb, Hb⟩, ⟨%fa, %hfa, Ha⟩, ⟨%dd, %fo, -, Ho⟩, ⟨%ds, %fs, -, Hs⟩, Hk⟩
  subst hfx; subst hfw; subst hfb; subst hfa
  sl_exec (disch := first | exact hc)
  sl_step
  iapply Hk
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  isplitl [Ha]
  · iexists fa; isplitr; · ipureintro; rfl
    iexact Ha
  isplitl [Ho]
  · iexists _; isplitr
    swap; · iexact Ho
    ipureintro
    sl_unfold_run_names
    rw [read_store_whole0 _ _ hz0, View.readCov_unit_zero _ hz0]
    simp only [load_whole0 (S := S10000x128) _ _ hz0, load_whole0 (S := S128x128) _ _ hz0, load_whole0 (S := S1x128) _ _ hz0, load_whole0 (S := S400x10000) _ _ hz0]
  iexists _; isplitr
  swap; · iexact Hs
  ipureintro
  sl_unfold_run_names
  rw [read_store_whole0 _ _ hz0]
  simp only [load_whole0 (S := S10000x128) _ _ hz0, load_whole0 (S := S128x128) _ _ hz0, load_whole0 (S := S1x128) _ _ hz0, load_whole0 (S := S400x10000) _ _ hz0]

set_option maxHeartbeats 1000000 in
/-- AT A LATER POINT (the branch not taken). The adjacency tile at `a`, the scratch at `s`, the output tile at anything: the
    body stores `k0_pay2 a s` whole into the output tile and writes nothing else; the three whole-array inputs are not
    touched at all. -/
theorem sound_kernel0_later (c : Dev nD) (E : Set ℕ) (i : grid0.Coords) (hc : ¬cond0 i)
    (mx : Memref sig .tc .vmem S10000x128 .f32) (hmx : mx.IsWhole) (mw : Memref sig .tc .vmem S128x128 .f32) (hmw : mw.IsWhole)
    (mb : Memref sig .tc .vmem S1x128 .f32) (hmb : mb.IsWhole) (ma : Memref sig .tc .vmem S400x10000 .f32) (hma : ma.IsWhole)
    (mo : Memref sig .tc .vmem S400x128 .f32) (hmo : mo.IsWhole) (ms : Memref sig .tc .vmem S10000x128 .bf16) (hms : ms.IsWhole)
    (a : Vec F S400x10000 .f32) (s : Vec F S10000x128 .bf16)
    (K : PUnit → sProp 𝕄) :
    iprop(owns (c : Thread nD τ) ma fullShare a ∗ (∃ d, owns (c : Thread nD τ) mo fullShare d) ∗ owns (c : Thread nD τ) ms fullShare s
        ∗ (iprop(owns (c : Thread nD τ) ma fullShare a ∗ owns (c : Thread nD τ) mo fullShare (k0_pay2 a s)
            ∗ owns (c : Thread nD τ) ms fullShare s) -∗ K ⟨⟩))
      ⊢ wp frame (wpE (defs₀ (F := F)) Variants.none c none) E (cc0__layer_body i mx hmx mw hmw mb hmb ma hma mo hmo ms hms) K := by
  simp only [cc0__layer_body_eq_skeleton]; unfold cc0__layer_body_skel
  unfold owns
  iintro ⟨⟨%fa, %hfa, Ha⟩, ⟨%dd, %fo, -, Ho⟩, ⟨%fs, %hfs, Hs⟩, Hk⟩
  subst hfa; subst hfs
  sl_exec (disch := first | exact hc)
  sl_step
  iapply Hk
  isplitl [Ha]
  · iexists fa; isplitr; · ipureintro; rfl
    iexact Ha
  isplitl [Ho]
  · iexists _; isplitr
    swap; · iexact Ho
    ipureintro
    sl_unfold_run_names
    rw [read_store_whole0 _ _ hz0]
    simp only [load_whole0 (S := S10000x128) _ _ hz0, load_whole0 (S := S128x128) _ _ hz0, load_whole0 (S := S1x128) _ _ hz0, load_whole0 (S := S400x10000) _ _ hz0]
  iexists fs; isplitr; · ipureintro; rfl
  iexact Hs

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid's first point. -/
abbrev first0 : Fin cfg0.N := ⟨0, by decide⟩

/-- The node features x·W + b the first point leaves in the scratch (windows 0, 1, 2 are whole arrays, the same block at every point). -/
def fts0 (c : Dev nD) : Vec F S10000x128 .bf16 :=
  k0_pay1 (iblk0 V c 0 first0) (iblk0 V c 1 first0) (iblk0 V c 2 first0)

/-- The scratch buffer the kernel keeps the features in, as the body is passed it. -/
abbrev scr0 : Memref sig .tc .vmem S10000x128 .bf16 := Memref.whole cc0_scratch0

/-- The region's invariant before position `n`: before the first point the class's (every scoped buffer that is no
    staging buffer at anything, the generator register at some state); afterwards the scratch at `fts0`, beside what
    makes the class's invariant again once the scratch is handed back at any contents. -/
def Phi0 (c : Dev nD) (n : ℕ) : sProp 𝕄 :=
  if n = 0 then Pipeline.ΦA spec0 c
  else iprop(owns (c : Thread nD τ) scr0 fullShare (fts0 V c)
    ∗ ((∃ d, owns (c : Thread nD τ) scr0 fullShare d) -∗ Pipeline.ΦA spec0 c))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (iblk0 V c 3 t) (fts0 V c)
  Φ t := Phi0 V c t.val
  q _ := fullShare
  owed _ := 0

theorem A_eq0 (c : Dev nD) (w : Fin cfg0.W) : (dat0 V c).A w = V c (Pipeline.arrRef spec0 w) := by
  dsimp only [dat0]
theorem after0_4 (c : Dev nD) (t : Fin cfg0.N) : (dat0 V c).after 4 t = k0_pay2 (iblk0 V c 3 t) (fts0 V c) := by dsimp only [dat0]

/-! ## What each window's buffer holds when the body runs -/

/-- What the body leaves in the input windows' buffers: their blocks, untouched. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]

/-- An input window's buffer holds the window's block at every point, whether the pipeline fetched it there or not: where it
    did not, the block index has not moved since the fetch and the body left the block in place. The windows are uncut and
    never idle. Window 0 (the node features, the whole array, fetched at the first point only): -/
theorem before0_0 (c : Dev nD) (t : Fin cfg0.N) (d) : (dat0 V c).before 0 t d = iblk0 V c 0 t := by
  rw [(dat0 V c).before_in_eq_fetched 0 rfl (fun _ => rfl) (fun _ _ _ => rfl) (fun t => by rw [after0_0]; rfl) t d]
  rfl
/-- window 1 (the weights, the whole array), -/
theorem before0_1 (c : Dev nD) (t : Fin cfg0.N) (d) : (dat0 V c).before 1 t d = iblk0 V c 1 t := by
  rw [(dat0 V c).before_in_eq_fetched 1 rfl (fun _ => rfl) (fun _ _ _ => rfl) (fun t => by rw [after0_1]; rfl) t d]
  rfl
/-- window 2 (the bias, the whole array), -/
theorem before0_2 (c : Dev nD) (t : Fin cfg0.N) (d) : (dat0 V c).before 2 t d = iblk0 V c 2 t := by
  rw [(dat0 V c).before_in_eq_fetched 2 rfl (fun _ => rfl) (fun _ _ _ => rfl) (fun t => by rw [after0_2]; rfl) t d]
  rfl
/-- window 3 (the adjacency rows of the point, fetched at every point). -/
theorem before0_3 (c : Dev nD) (t : Fin cfg0.N) (d) : (dat0 V c).before 3 t d = iblk0 V c 3 t := by
  rw [(dat0 V c).before_in_eq_fetched 3 rfl (fun _ => rfl) (fun _ _ _ => rfl) (fun t => by rw [after0_3]; rfl) t d]
  rfl

/-! ## The invariant, case by case -/

theorem Phi0_zero (c : Dev nD) : Phi0 V c 0 = Pipeline.ΦA spec0 c := if_pos rfl

theorem Phi0_pos (c : Dev nD) (n : ℕ) (h : n ≠ 0) :
    Phi0 V c n = iprop(owns (c : Thread nD τ) scr0 fullShare (fts0 V c)
      ∗ ((∃ d, owns (c : Thread nD τ) scr0 fullShare d) -∗ Pipeline.ΦA spec0 c)) := if_neg h

/-- The class invariant with this region's scratch split off: the scratch owned whole at some contents, the core's other
    scoped buffers that are no staging buffer of this region (unopened), the generator register at some state. -/
theorem PhiA0_eq (c : Dev nD) :
    (Pipeline.ΦA spec0 c : sProp 𝕄)
      = iprop(((∃ d, owns (c : Thread nD τ) scr0 fullShare d)
          ∗ Pipeline.scopedRestBut (Ix := Unit) (Name := ℕ) (U := UR sig nD τ) (Lvl := ℕ) (Val := Elt F) spec0 c [cc0_scratch0])
        ∗ ∃ r, prngReg c r) := by
  unfold Pipeline.ΦA
  rw [Pipeline.scopedRest_split_of_list spec0 c [cc0_scratch0] (by decide) (by decide)]
  simp only [scr0, owns_whole]
  rfl

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point. The four input buffers hold their blocks. AT THE FIRST POINT the invariant is the class's: the
    scratch is taken out of it at anything, the body fills it with the features of the first point's blocks, which is `fts0`,
    and the rest of the class invariant is kept behind a wand that takes the scratch back at any contents. AT A LATER POINT the
    scratch comes at `fts0` and goes back unchanged, and the wand passes through. Either way the output tile ends at the
    clipped product of the point's adjacency rows with `fts0`; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.castSucc = Phi0 V c t.val from rfl,
    show (dat0 V c).Φ t.succ = Phi0 V c (t.val + 1) from rfl,
    Phi0_pos V c _ (Nat.succ_ne_zero _), after0_0, after0_1, after0_2, after0_3, after0_4]
  by_cases hz : t.val = 0
  · obtain rfl : t = first0 := Fin.ext hz
    rw [Phi0_zero, PhiA0_eq]
    unfold fts0
    iintro ⟨⟨⟨Hs, Hr⟩, Hg⟩, Ho, ⟨%dx, Hx⟩, ⟨%dw, Hw⟩, ⟨%db, Hb⟩, ⟨%da, Ha⟩, ⟨%dd, Hd⟩⟩
    iapply (sound_kernel0_first c Set.univ _ ((hcond0 first0).mpr rfl) _ _ _ _ _ _ _ _ _ _ _ _
      (iblk0 V c 0 first0) (iblk0 V c 1 first0) (iblk0 V c 2 first0) (iblk0 V c 3 first0) _)
    isplitl [Hx]; · iexact Hx
    isplitl [Hw]; · iexact Hw
    isplitl [Hb]; · iexact Hb
    isplitl [Ha]; · iexact Ha
    isplitl [Hd]; · iexists _; iexact Hd
    isplitl [Hs]; · iexact Hs
    iintro ⟨Hx, Hw, Hb, Ha, Hd, Hs⟩
    isplitl [Hs Hr Hg]
    · isplitl [Hs]; · iexact Hs
      iintro Hn
      isplitl [Hn Hr]
      · isplitl [Hn]; · iexact Hn
        iexact Hr
      iexact Hg
    isplitl [Ho]; · iexact Ho
    isplitl [Hx]; · iexact Hx
    isplitl [Hw]; · iexact Hw
    isplitl [Hb]; · iexact Hb
    isplitl [Ha]; · iexact Ha
    iexact Hd
  · rw [Phi0_pos V c _ hz]
    iintro ⟨⟨Hs, Hr⟩, Ho, ⟨%dx, Hx⟩, ⟨%dw, Hw⟩, ⟨%db, Hb⟩, ⟨%da, Ha⟩, ⟨%dd, Hd⟩⟩
    iapply (sound_kernel0_later c Set.univ _ (fun h => hz ((hcond0 t).mp h)) _ _ _ _ _ _ _ _ _ _ _ _
      (iblk0 V c 3 t) (fts0 V c) _)
    isplitl [Ha]; · iexact Ha
    isplitl [Hd]; · iexists _; iexact Hd
    isplitl [Hs]; · iexact Hs
    iintro ⟨Ha, Hd, Hs⟩
    isplitl [Hs Hr]
    · isplitl [Hs]; · iexact Hs
      iexact Hr
    isplitl [Ho]; · iexact Ho
    isplitl [Hx]; · iexact Hx
    isplitl [Hw]; · iexact Hw
    isplitl [Hb]; · iexact Hb
    isplitl [Ha]; · iexact Ha
    iexact Hd

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 from rfl, Phi0_zero]

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = Phi0 V c cfg0.N from rfl,
    Phi0_pos V c _ (by have hN : cfg0.N = 25 := N_0; omega)]
  iintro ⟨Hs, Hr⟩
  iapply Hr
  iexists _; iexact Hs

end

end Cert.Kernel.Hand

end
-- ==== Proof.BitsBody1.lean ====
/-
  Layer 1 of the word-level kernel, at the contents `V` its region is entered with.

  The grid has 25 points; point t multiplies rows 400t … 400t+399 of the adjacency matrix with the
  node features. The features x·W + b are computed once, at point 0, into a scratch buffer that
  every point then reads: after EVERY point the scratch holds that one array (`fts1`), which does
  not depend on the point. So the region's invariant is: before point 0 the scratch is anything;
  from then on it holds `fts1`. Point t leaves in the output block the clipped product of its
  adjacency rows with `fts1`.
-/
import proofs.«142951_g14259291422968_cont_week2b_117_5_alg».proof.Proof.Gen.Kernel.Launch
import proofs.«142951_g14259291422968_cont_week2b_117_5_alg».proof.Proof.Gen.Kernel.Skeleton
import proofs.«142951_g14259291422968_cont_week2b_117_5_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch -/

/-- The body's one branch condition, from the grid coordinate: the coordinate compared with zero, the bit widened
    and compared with zero again. -/
abbrev cond1 (i : grid1.Coords) : Prop :=
  (Scalar.cmpi .ne (Scalar.extui (Scalar.cmpi .eq (BitVec.ofNat 32 (i 0).val) 0#32)) 0#32) = 1#1

/-- It holds at the first point and at no other: decided over the 25 points. -/
theorem hcond1 : ∀ t : Fin cfg1.N, cond1 (grid1.coords t) ↔ t.val = 0 :=
  (by decide +kernel : ∀ t : Fin grid1.N, cond1 (grid1.coords t) ↔ t.val = 0)

/-! ## Whole-buffer accesses

Every load and store of the body goes through the rectangle that is the whole buffer, at the origin. -/

/-- The offsets of a rank-2 access at the origin are the zero function. -/
theorem hz1 : (![0, 0] : Fin 2 → Nat) = fun _ => 0 := funext fun a => by fin_cases a <;> rfl

/-- A load through the whole-buffer rectangle at the origin reads the buffer's contents. -/
theorem load_whole1 {Val : EltTy → Type} {sg : RefSig} {κ : Kind} {sp : Space} {S : Shape} {e : EltTy}
    (v : View sg κ sp S e) (f : v.ty.Contents Val) {off : Fin S.rank → Nat} (hz : off = fun _ => 0)
    (inb : ∀ a, off a + S.size a ≤ S.size a) :
    v.readAt Val (Rect.unit off S.size inb).toLoadRect f = v.read Val f :=
  (View.readAt_eq_ld v f (Rect.unit off S.size inb)).trans (View.ld_unit_zero hz inb _)

/-- One store through it, over any earlier contents, reads back as the stored payload: its one piece holds every index. -/
theorem read_store_whole1 {Val : EltTy → Type} [∀ e, Nonempty (Val e)] {sg : RefSig} {κ : Kind} {sp : Space} {S : Shape} {e : EltTy}
    (v : View sg κ sp S e) (f : v.ty.Contents Val) {off : Fin S.rank → Nat} (hz : off = fun _ => 0)
    (inb : ∀ a, off a + S.size a ≤ S.size a) (p : S.Idx → Val e) :
    v.read Val (v.writes Val f [(⟨Rect.unit off S.size inb, p⟩ : View.Piece Val S e)]) = p := by
  rw [View.read_writes_eq_canon v f _ (fun y => ⟨_, List.mem_singleton_self _, View.mem_set_unit_zero hz inb y⟩),
    View.canon_unit_zero hz inb p]

/-! ## The body's triple, at the first point and at a later one -/

set_option maxHeartbeats 1000000 in
/-- AT THE FIRST POINT (the branch taken). The feature, weight and bias buffers at `x`, `w`, `b`, the adjacency tile at `a`,
    the output tile and the scratch at anything: the body stores `k1_pay1 x w b` whole into the scratch, reads it back,
    and stores `k1_pay2 a (k1_pay1 x w b)` whole into the output tile; the four inputs are left as they were. -/
theorem sound_kernel1_first (c : Dev nD) (E : Set ℕ) (i : grid1.Coords) (hc : cond1 i)
    (mx : Memref sig .tc .vmem S10000x128 .f32) (hmx : mx.IsWhole) (mw : Memref sig .tc .vmem S128x128 .f32) (hmw : mw.IsWhole)
    (mb : Memref sig .tc .vmem S1x128 .f32) (hmb : mb.IsWhole) (ma : Memref sig .tc .vmem S400x10000 .f32) (hma : ma.IsWhole)
    (mo : Memref sig .tc .vmem S400x128 .f32) (hmo : mo.IsWhole) (ms : Memref sig .tc .vmem S10000x128 .bf16) (hms : ms.IsWhole)
    (x : Vec F S10000x128 .f32) (w : Vec F S128x128 .f32) (b : Vec F S1x128 .f32) (a : Vec F S400x10000 .f32)
    (K : PUnit → sProp 𝕄) :
    iprop(owns (c : Thread nD τ) mx fullShare x ∗ owns (c : Thread nD τ) mw fullShare w ∗ owns (c : Thread nD τ) mb fullShare b
        ∗ owns (c : Thread nD τ) ma fullShare a ∗ (∃ d, owns (c : Thread nD τ) mo fullShare d) ∗ (∃ d, owns (c : Thread nD τ) ms fullShare d)
        ∗ (iprop(owns (c : Thread nD τ) mx fullShare x ∗ owns (c : Thread nD τ) mw fullShare w ∗ owns (c : Thread nD τ) mb fullShare b
            ∗ owns (c : Thread nD τ) ma fullShare a ∗ owns (c : Thread nD τ) mo fullShare (k1_pay2 a (k1_pay1 x w b))
            ∗ owns (c : Thread nD τ) ms fullShare (k1_pay1 x w b)) -∗ K ⟨⟩))
      ⊢ wp frame (wpE (defs₀ (F := F)) Variants.none c none) E (cc1__layer_body i mx hmx mw hmw mb hmb ma hma mo hmo ms hms) K := by
  simp only [cc1__layer_body_eq_skeleton]; unfold cc1__layer_body_skel
  unfold owns
  iintro ⟨⟨%fx, %hfx, Hx⟩, ⟨%fw, %hfw, Hw⟩, ⟨%fb, %hfb, Hb⟩, ⟨%fa, %hfa, Ha⟩, ⟨%dd, %fo, -, Ho⟩, ⟨%ds, %fs, -, Hs⟩, Hk⟩
  subst hfx; subst hfw; subst hfb; subst hfa
  sl_exec (disch := first | exact hc)
  sl_step
  iapply Hk
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  isplitl [Ha]
  · iexists fa; isplitr; · ipureintro; rfl
    iexact Ha
  isplitl [Ho]
  · iexists _; isplitr
    swap; · iexact Ho
    ipureintro
    sl_unfold_run_names
    rw [read_store_whole1 _ _ hz1, View.readCov_unit_zero _ hz1]
    simp only [load_whole1 (S := S10000x128) _ _ hz1, load_whole1 (S := S128x128) _ _ hz1, load_whole1 (S := S1x128) _ _ hz1, load_whole1 (S := S400x10000) _ _ hz1]
  iexists _; isplitr
  swap; · iexact Hs
  ipureintro
  sl_unfold_run_names
  rw [read_store_whole1 _ _ hz1]
  simp only [load_whole1 (S := S10000x128) _ _ hz1, load_whole1 (S := S128x128) _ _ hz1, load_whole1 (S := S1x128) _ _ hz1, load_whole1 (S := S400x10000) _ _ hz1]

set_option maxHeartbeats 1000000 in
/-- AT A LATER POINT (the branch not taken). The adjacency tile at `a`, the scratch at `s`, the output tile at anything: the
    body stores `k1_pay2 a s` whole into the output tile and writes nothing else; the three whole-array inputs are not
    touched at all. -/
theorem sound_kernel1_later (c : Dev nD) (E : Set ℕ) (i : grid1.Coords) (hc : ¬cond1 i)
    (mx : Memref sig .tc .vmem S10000x128 .f32) (hmx : mx.IsWhole) (mw : Memref sig .tc .vmem S128x128 .f32) (hmw : mw.IsWhole)
    (mb : Memref sig .tc .vmem S1x128 .f32) (hmb : mb.IsWhole) (ma : Memref sig .tc .vmem S400x10000 .f32) (hma : ma.IsWhole)
    (mo : Memref sig .tc .vmem S400x128 .f32) (hmo : mo.IsWhole) (ms : Memref sig .tc .vmem S10000x128 .bf16) (hms : ms.IsWhole)
    (a : Vec F S400x10000 .f32) (s : Vec F S10000x128 .bf16)
    (K : PUnit → sProp 𝕄) :
    iprop(owns (c : Thread nD τ) ma fullShare a ∗ (∃ d, owns (c : Thread nD τ) mo fullShare d) ∗ owns (c : Thread nD τ) ms fullShare s
        ∗ (iprop(owns (c : Thread nD τ) ma fullShare a ∗ owns (c : Thread nD τ) mo fullShare (k1_pay2 a s)
            ∗ owns (c : Thread nD τ) ms fullShare s) -∗ K ⟨⟩))
      ⊢ wp frame (wpE (defs₀ (F := F)) Variants.none c none) E (cc1__layer_body i mx hmx mw hmw mb hmb ma hma mo hmo ms hms) K := by
  simp only [cc1__layer_body_eq_skeleton]; unfold cc1__layer_body_skel
  unfold owns
  iintro ⟨⟨%fa, %hfa, Ha⟩, ⟨%dd, %fo, -, Ho⟩, ⟨%fs, %hfs, Hs⟩, Hk⟩
  subst hfa; subst hfs
  sl_exec (disch := first | exact hc)
  sl_step
  iapply Hk
  isplitl [Ha]
  · iexists fa; isplitr; · ipureintro; rfl
    iexact Ha
  isplitl [Ho]
  · iexists _; isplitr
    swap; · iexact Ho
    ipureintro
    sl_unfold_run_names
    rw [read_store_whole1 _ _ hz1]
    simp only [load_whole1 (S := S10000x128) _ _ hz1, load_whole1 (S := S128x128) _ _ hz1, load_whole1 (S := S1x128) _ _ hz1, load_whole1 (S := S400x10000) _ _ hz1]
  iexists fs; isplitr; · ipureintro; rfl
  iexact Hs

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The grid's first point. -/
abbrev first1 : Fin cfg1.N := ⟨0, by decide⟩

/-- The node features x·W + b the first point leaves in the scratch (windows 0, 1, 2 are whole arrays, the same block at every point). -/
def fts1 (c : Dev nD) : Vec F S10000x128 .bf16 :=
  k1_pay1 (iblk1 V c 0 first1) (iblk1 V c 1 first1) (iblk1 V c 2 first1)

/-- The scratch buffer the kernel keeps the features in, as the body is passed it. -/
abbrev scr1 : Memref sig .tc .vmem S10000x128 .bf16 := Memref.whole cc1_scratch0

/-- The region's invariant before position `n`: before the first point the class's (every scoped buffer that is no
    staging buffer at anything, the generator register at some state); afterwards the scratch at `fts1`, beside what
    makes the class's invariant again once the scratch is handed back at any contents. -/
def Phi1 (c : Dev nD) (n : ℕ) : sProp 𝕄 :=
  if n = 0 then Pipeline.ΦA spec1 c
  else iprop(owns (c : Thread nD τ) scr1 fullShare (fts1 V c)
    ∗ ((∃ d, owns (c : Thread nD τ) scr1 fullShare d) -∗ Pipeline.ΦA spec1 c))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay2 (iblk1 V c 3 t) (fts1 V c)
  Φ t := Phi1 V c t.val
  q _ := fullShare
  owed _ := 0

theorem A_eq1 (c : Dev nD) (w : Fin cfg1.W) : (dat1 V c).A w = V c (Pipeline.arrRef spec1 w) := by
  dsimp only [dat1]
theorem after1_4 (c : Dev nD) (t : Fin cfg1.N) : (dat1 V c).after 4 t = k1_pay2 (iblk1 V c 3 t) (fts1 V c) := by dsimp only [dat1]

/-! ## What each window's buffer holds when the body runs -/

/-- What the body leaves in the input windows' buffers: their blocks, untouched. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

/-- An input window's buffer holds the window's block at every point, whether the pipeline fetched it there or not: where it
    did not, the block index has not moved since the fetch and the body left the block in place. The windows are uncut and
    never idle. Window 0 (the node features, the whole array, fetched at the first point only): -/
theorem before1_0 (c : Dev nD) (t : Fin cfg1.N) (d) : (dat1 V c).before 0 t d = iblk1 V c 0 t := by
  rw [(dat1 V c).before_in_eq_fetched 0 rfl (fun _ => rfl) (fun _ _ _ => rfl) (fun t => by rw [after1_0]; rfl) t d]
  rfl
/-- window 1 (the weights, the whole array), -/
theorem before1_1 (c : Dev nD) (t : Fin cfg1.N) (d) : (dat1 V c).before 1 t d = iblk1 V c 1 t := by
  rw [(dat1 V c).before_in_eq_fetched 1 rfl (fun _ => rfl) (fun _ _ _ => rfl) (fun t => by rw [after1_1]; rfl) t d]
  rfl
/-- window 2 (the bias, the whole array), -/
theorem before1_2 (c : Dev nD) (t : Fin cfg1.N) (d) : (dat1 V c).before 2 t d = iblk1 V c 2 t := by
  rw [(dat1 V c).before_in_eq_fetched 2 rfl (fun _ => rfl) (fun _ _ _ => rfl) (fun t => by rw [after1_2]; rfl) t d]
  rfl
/-- window 3 (the adjacency rows of the point, fetched at every point). -/
theorem before1_3 (c : Dev nD) (t : Fin cfg1.N) (d) : (dat1 V c).before 3 t d = iblk1 V c 3 t := by
  rw [(dat1 V c).before_in_eq_fetched 3 rfl (fun _ => rfl) (fun _ _ _ => rfl) (fun t => by rw [after1_3]; rfl) t d]
  rfl

/-! ## The invariant, case by case -/

theorem Phi1_zero (c : Dev nD) : Phi1 V c 0 = Pipeline.ΦA spec1 c := if_pos rfl

theorem Phi1_pos (c : Dev nD) (n : ℕ) (h : n ≠ 0) :
    Phi1 V c n = iprop(owns (c : Thread nD τ) scr1 fullShare (fts1 V c)
      ∗ ((∃ d, owns (c : Thread nD τ) scr1 fullShare d) -∗ Pipeline.ΦA spec1 c)) := if_neg h

/-- The class invariant with this region's scratch split off: the scratch owned whole at some contents, the core's other
    scoped buffers that are no staging buffer of this region (unopened), the generator register at some state. -/
theorem PhiA1_eq (c : Dev nD) :
    (Pipeline.ΦA spec1 c : sProp 𝕄)
      = iprop(((∃ d, owns (c : Thread nD τ) scr1 fullShare d)
          ∗ Pipeline.scopedRestBut (Ix := Unit) (Name := ℕ) (U := UR sig nD τ) (Lvl := ℕ) (Val := Elt F) spec1 c [cc1_scratch0])
        ∗ ∃ r, prngReg c r) := by
  unfold Pipeline.ΦA
  rw [Pipeline.scopedRest_split_of_list spec1 c [cc1_scratch0] (by decide) (by decide)]
  simp only [scr1, owns_whole]
  rfl

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point. The four input buffers hold their blocks. AT THE FIRST POINT the invariant is the class's: the
    scratch is taken out of it at anything, the body fills it with the features of the first point's blocks, which is `fts1`,
    and the rest of the class invariant is kept behind a wand that takes the scratch back at any contents. AT A LATER POINT the
    scratch comes at `fts1` and goes back unchanged, and the wand passes through. Either way the output tile ends at the
    clipped product of the point's adjacency rows with `fts1`; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.castSucc = Phi1 V c t.val from rfl,
    show (dat1 V c).Φ t.succ = Phi1 V c (t.val + 1) from rfl,
    Phi1_pos V c _ (Nat.succ_ne_zero _), after1_0, after1_1, after1_2, after1_3, after1_4]
  by_cases hz : t.val = 0
  · obtain rfl : t = first1 := Fin.ext hz
    rw [Phi1_zero, PhiA1_eq]
    unfold fts1
    iintro ⟨⟨⟨Hs, Hr⟩, Hg⟩, Ho, ⟨%dx, Hx⟩, ⟨%dw, Hw⟩, ⟨%db, Hb⟩, ⟨%da, Ha⟩, ⟨%dd, Hd⟩⟩
    iapply (sound_kernel1_first c Set.univ _ ((hcond1 first1).mpr rfl) _ _ _ _ _ _ _ _ _ _ _ _
      (iblk1 V c 0 first1) (iblk1 V c 1 first1) (iblk1 V c 2 first1) (iblk1 V c 3 first1) _)
    isplitl [Hx]; · iexact Hx
    isplitl [Hw]; · iexact Hw
    isplitl [Hb]; · iexact Hb
    isplitl [Ha]; · iexact Ha
    isplitl [Hd]; · iexists _; iexact Hd
    isplitl [Hs]; · iexact Hs
    iintro ⟨Hx, Hw, Hb, Ha, Hd, Hs⟩
    isplitl [Hs Hr Hg]
    · isplitl [Hs]; · iexact Hs
      iintro Hn
      isplitl [Hn Hr]
      · isplitl [Hn]; · iexact Hn
        iexact Hr
      iexact Hg
    isplitl [Ho]; · iexact Ho
    isplitl [Hx]; · iexact Hx
    isplitl [Hw]; · iexact Hw
    isplitl [Hb]; · iexact Hb
    isplitl [Ha]; · iexact Ha
    iexact Hd
  · rw [Phi1_pos V c _ hz]
    iintro ⟨⟨Hs, Hr⟩, Ho, ⟨%dx, Hx⟩, ⟨%dw, Hw⟩, ⟨%db, Hb⟩, ⟨%da, Ha⟩, ⟨%dd, Hd⟩⟩
    iapply (sound_kernel1_later c Set.univ _ (fun h => hz ((hcond1 t).mp h)) _ _ _ _ _ _ _ _ _ _ _ _
      (iblk1 V c 3 t) (fts1 V c) _)
    isplitl [Ha]; · iexact Ha
    isplitl [Hd]; · iexists _; iexact Hd
    isplitl [Hs]; · iexact Hs
    iintro ⟨Ha, Hd, Hs⟩
    isplitl [Hs Hr]
    · isplitl [Hs]; · iexact Hs
      iexact Hr
    isplitl [Ho]; · iexact Ho
    isplitl [Hx]; · iexact Hx
    isplitl [Hw]; · iexact Hw
    isplitl [Hb]; · iexact Hb
    isplitl [Ha]; · iexact Ha
    iexact Hd

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 from rfl, Phi1_zero]

/-- After the last point the invariant gives the class's back: the scratch's contents are forgotten. -/
theorem hout1 (c : Dev nD) : (dat1 V c).Φ (Fin.last cfg1.N) ⊢ Pipeline.ΦA spec1 c := by
  rw [show (dat1 V c).Φ (Fin.last cfg1.N) = Phi1 V c cfg1.N from rfl,
    Phi1_pos V c _ (by have hN : cfg1.N = 25 := N_1; omega)]
  iintro ⟨Hs, Hr⟩
  iapply Hr
  iexists _; iexact Hs

end

end Cert.Kernel.Hand

end
-- ==== Proof.BitsRecords.lean ====
/-
  The word-level kernel's two regions as records of the several-regions launch, and its run.

  @main is: two reshapes; layer 0's region; one reshape; layer 1's region; one broadcast. Between two
  items every unscoped buffer is held at a known valuation: the launch memory, then each host stretch's
  operations applied, then — after a region — the region's output array at what its 25 write-backs leave
  (`Dat.arrAt … 25` of that region's proof data) and every other buffer as before. Region 1's proof data are
  stated at the valuation region 0 and the reshape after it leave, so its input array IS layer 0's output.
  The run ends with every unscoped buffer at the last valuation; the frame claim and the result's contents
  are read off it.
-/
import proofs.«142951_g14259291422968_cont_week2b_117_5_alg».proof.Proof.BitsBody0
import proofs.«142951_g14259291422968_cont_week2b_117_5_alg».proof.Proof.BitsBody1
import proofs.«142951_g14259291422968_cont_week2b_117_5_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- What region 0 is entered with, read at the TensorCore's references: the launch memory after the two reshapes. -/
abbrev entry0 (c : Dev nD) (b : Ref sig .tc) : Buf (Elt F) ((c : Thread nD τ).loc b) := Gen.V1 m c b

/-- Layer 0's output array after its region: what the 25 write-backs leave. -/
def left0 (c : Dev nD) : Buf (Elt F) ((c : Thread nD τ).loc main_v2) := (dat0 (entry0 m) c).arrAt 4 cfg0.N

/-- The regions' outputs as far as region 0: `main_v2` at `left0`. -/
def outsUpTo0 : Gen.Outs (F := F) := fun _ r c =>
  Function.update (β := fun r' : Ref sig .tc => Buf (Elt F) ((c : Thread nD τ).loc r')) (fun r' => Gen.V1 m c r') main_v2 (left0 m c) r

/-- What region 1 is entered with: region 0's exit contents after the reshape between the regions. -/
abbrev entry1 (c : Dev nD) (b : Ref sig .tc) : Buf (Elt F) ((c : Thread nD τ).loc b) := Gen.V3 m (outsUpTo0 m) c b

/-- Layer 1's output array after its region. -/
def left1 (c : Dev nD) : Buf (Elt F) ((c : Thread nD τ).loc main_v4) := (dat1 (entry1 m) c).arrAt 4 cfg1.N

/-- What the regions leave in their output arrays: `main_v2` at `left0` after region 0, `main_v4` at `left1` after region 1. -/
def outs : Gen.Outs (F := F) := fun n r c =>
  if n = 4 then
    Function.update (β := fun r' : Ref sig .tc => Buf (Elt F) ((c : Thread nD τ).loc r')) (fun r' => Gen.V3 m (outsUpTo0 m) c r') main_v4 (left1 m c) r
  else outsUpTo0 m n r c

theorem outs_two (c : Dev nD) : outs m 2 main_v2 c = (dat0 (entry0 m) c).arrAt 4 cfg0.N := by
  -- index 2 is not region 1's, so this is the valuation region 0 is entered with, updated at `main_v2`, read at `main_v2`
  simp only [outs, if_neg (by decide : ¬ (2 : ℕ) = 4), outsUpTo0, Function.update_self, left0]

theorem outs_four (c : Dev nD) : outs m 4 main_v4 c = (dat1 (entry1 m) c).arrAt 4 cfg1.N := by
  -- index 4 is region 1's: the valuation before it updated at `main_v4`, read at `main_v4`
  simp only [outs, if_pos, Function.update_self, left1]

/-- Region 1's entry contents in terms of `outs`: the valuation the generated run names `V3`. -/
theorem entry1_eq (c : Dev nD) (b : Ref sig .tc) : entry1 m c b = Gen.V3 m (outs m) c b := by
  -- the valuation before region 1 reads the regions' outputs only at index 2, where the two families agree
  have h : outs m 2 main_v2 c = outsUpTo0 m 2 main_v2 c := by simp only [outs, if_neg (by decide : ¬ (2 : ℕ) = 4)]
  show StableHlo.after hostOps1 (Function.update (Gen.V1 m c) main_v2 (outsUpTo0 m 2 main_v2 c)) b
    = StableHlo.after hostOps1 (Function.update (Gen.V1 m c) main_v2 (outs m 2 main_v2 c)) b
  rw [h]

/-- Every pipeline's proof data, each at its region's entry contents. -/
def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

/-! ## What rides beside the buffers, and the launch's parameters

No core owes another anything, so no pair carries a level; the user algebra is the pipeline library's own. -/

/-- No variant beyond the library's. -/
abbrev noVar : Variants := Variants.none
/-- No pair of cells carries a level. -/
abbrev noPairs : GSem nD τ sig → Finset Unit := fun _ => ∅
/-- The level assignment (read nowhere). -/
abbrev lvl0 : GSem nD τ sig → Unit → ℕ := fun _ _ => 0

/-- Beside the unscoped buffers a core holds, between any two items, its generator register at some state and its
    dues at nothing. -/
abbrev rest (c : Dev nD) : sProp 𝕄 :=
  iprop((∃ r, prngReg c r) ∗ ∃ W, owes (c : Thread nD τ) (0 : CellTallies nD τ sig Unit) W)

/-! ## Region 0's exit valuation

After region 0 the array `main_v2` holds what the 25 write-backs leave and every other unscoped buffer is as at entry:
the four input windows' arrays because an input window's array is never written, the rest because no window names them. -/

/-- Each array of region 0, after the last point, is the exit valuation at that array. -/
theorem exit0_arr (c : Dev nD) : ∀ w : Fin cfg0.W,
    (pdats m 0 c).arrAt w cfg0.N = Gen.V2 m (outs m) c (Pipeline.arrRef spec0 w)
  | ⟨0, _⟩ => ((dat0 (entry0 m) c).arrAt_in 0 rfl _).trans (Gen.V2_of m (outs m) c main_v0 (by decide)).symm
  | ⟨1, _⟩ => ((dat0 (entry0 m) c).arrAt_in 1 rfl _).trans (Gen.V2_of m (outs m) c main_arg2 (by decide)).symm
  | ⟨2, _⟩ => ((dat0 (entry0 m) c).arrAt_in 2 rfl _).trans (Gen.V2_of m (outs m) c main_v1 (by decide)).symm
  | ⟨3, _⟩ => ((dat0 (entry0 m) c).arrAt_in 3 rfl _).trans (Gen.V2_of m (outs m) c main_arg1 (by decide)).symm
  | ⟨4, _⟩ => (outs_two m c).symm.trans (Function.update_self (β := fun b : DevRef τ sig => Buf (Elt F) ((c : Thread nD τ).1, b)) _ _ _).symm

/-- A buffer that is no array of region 0 is not `main_v2`, so the exit valuation has it as at entry. -/
theorem exit0_rest (c : Dev nD) (b : Ref sig .tc) (hb : b ∉ Finset.univ.image (Pipeline.arrRef spec0)) :
    Gen.V2 m (outs m) c b = entry0 m c b :=
  Gen.V2_of m (outs m) c b fun h => hb (by
    rw [List.mem_singleton] at h; subst h
    exact Finset.mem_image.mpr ⟨4, Finset.mem_univ _, rfl⟩)

set_option backward.isDefEq.respectTransparency.types false in
/-- REGION 0 over the thread state: entered with every unscoped buffer at the valuation after the two reshapes, left
    with `main_v2` at the write-backs' result and everything else unchanged. The five arrays are split out of the
    unscoped buffers and put back at the exit valuation; the generator register goes into the invariant and comes
    back; nothing is owed; the kernel has no semaphore of its own. -/
def reg0 : Pipeline.RegionSeg (pcfgs (F := F)) Gen.adm (pdats m) () defs₀ noVar noPairs lvl0 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ noPairs lvl0 0 fun _ _ => rfl
  pre c := iprop(StableHlo.held (c : Thread nD τ) (Pipeline.ucRefs τ sig) (Gen.V1 m c) ∗ rest c)
  post c := iprop(StableHlo.held (c : Thread nD τ) (Pipeline.ucRefs τ sig) (Gen.V2 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    -- the unscoped buffers at the entry valuation are the five arrays at the proof data's entry contents and the rest
    have hsplit := Pipeline.arrays_of_unscopedBufs (p := 0) (pcfgs (F := F)) Gen.adm (pdats m) launch0.win launch0.arr_whole c
      ((pdats m 0 c).share_full fun _ => rfl) (entry0 m c) fun _ => rfl
    rw [Pipeline.unscopedBufs_held c (Gen.V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the register and the scoped buffers no window stages make the class's invariant, which is the invariant before point 0
    rw [show (pdats m 0 c).Φ 0 = (dat0 (entry0 m) c).Φ 0 from rfl]
    refine BIBase.Entails.trans ?_ (hin0 (entry0 m) c)
    unfold Pipeline.ΦA
    iintro ⟨Hp, -, Hr⟩
    isplitl [Hr]; · iexact Hr
    iexact Hp
  hout c := by
    -- after the last point the invariant gives the class's back: the scoped buffers and the register
    rw [Pipeline.ownSems0_none, show (pdats m 0 c).Φ (Fin.last _) = (dat0 (entry0 m) c).Φ (Fin.last cfg0.N) from rfl]
    refine BIBase.Entails.trans (hout0 (entry0 m) c) ?_
    unfold Pipeline.ΦA
    iintro ⟨Hr, Hp⟩
    isplitl [Hp]; · iexact Hp
    isplitr; · iempintro
    iexact Hr
  hexit c := by
    -- the arrays at their last contents and the rest at the entry valuation are the unscoped buffers at the exit valuation
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (entry0 m c) (fun b => Gen.V2 m (outs m) c b) ((pdats m 0 c).arrAt · cfg0.N) (exit0_arr m c) (exit0_rest m c)
    rw [Pipeline.unscopedBufs_held c (Gen.V2 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1's exit valuation

Region 1 is entered at the valuation the reshape after region 0 leaves, read over the full family `outs`; its proof data
are stated over the family as far as region 0, and the two valuations agree (`entry1_eq`). After it `main_v4` holds
what its 25 write-backs leave and every other unscoped buffer is as at entry. -/

/-- The valuation region 1 is entered with, over the full family of outputs. -/
abbrev into1 (c : Dev nD) (b : Ref sig .tc) : Buf (Elt F) ((c : Thread nD τ).loc b) := Gen.V3 m (outs m) c b

/-- Each array of region 1, at entry, is the entry valuation at that array. -/
theorem into1_arr (c : Dev nD) (w : Fin cfg1.W) : (pdats m 1 c).A w = into1 m c (Pipeline.arrRef spec1 w) :=
  entry1_eq m c (Pipeline.arrRef spec1 w)

/-- Each array of region 1, after the last point, is the exit valuation at that array. -/
theorem exit1_arr (c : Dev nD) : ∀ w : Fin cfg1.W,
    (pdats m 1 c).arrAt w cfg1.N = Gen.V4 m (outs m) c (Pipeline.arrRef spec1 w)
  | ⟨0, _⟩ => ((dat1 (entry1 m) c).arrAt_in 0 rfl _).trans ((entry1_eq m c main_v2).trans (Gen.V4_of m (outs m) c main_v2 (by decide)).symm)
  | ⟨1, _⟩ => ((dat1 (entry1 m) c).arrAt_in 1 rfl _).trans ((entry1_eq m c main_arg4).trans (Gen.V4_of m (outs m) c main_arg4 (by decide)).symm)
  | ⟨2, _⟩ => ((dat1 (entry1 m) c).arrAt_in 2 rfl _).trans ((entry1_eq m c main_v3).trans (Gen.V4_of m (outs m) c main_v3 (by decide)).symm)
  | ⟨3, _⟩ => ((dat1 (entry1 m) c).arrAt_in 3 rfl _).trans ((entry1_eq m c main_arg1).trans (Gen.V4_of m (outs m) c main_arg1 (by decide)).symm)
  | ⟨4, _⟩ => (outs_four m c).symm.trans (Function.update_self (β := fun b : DevRef τ sig => Buf (Elt F) ((c : Thread nD τ).1, b)) _ _ _).symm

/-- A buffer that is no array of region 1 is not `main_v4`, so the exit valuation has it as at entry. -/
theorem exit1_rest (c : Dev nD) (b : Ref sig .tc) (hb : b ∉ Finset.univ.image (Pipeline.arrRef spec1)) :
    Gen.V4 m (outs m) c b = into1 m c b :=
  Gen.V4_of m (outs m) c b fun h => hb (by
    rw [List.mem_singleton] at h; subst h
    exact Finset.mem_image.mpr ⟨4, Finset.mem_univ _, rfl⟩)

set_option backward.isDefEq.respectTransparency.types false in
/-- REGION 1 over the thread state: entered with every unscoped buffer at the valuation after the reshape between the
    regions (so its first window's array is layer 0's output), left with `main_v4` at the write-backs' result and
    everything else unchanged. Same bookkeeping as region 0. -/
def reg1 : Pipeline.RegionSeg (pcfgs (F := F)) Gen.adm (pdats m) () defs₀ noVar noPairs lvl0 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ noPairs lvl0 1 fun _ _ => rfl
  pre c := iprop(StableHlo.held (c : Thread nD τ) (Pipeline.ucRefs τ sig) (Gen.V3 m (outs m) c) ∗ rest c)
  post c := iprop(StableHlo.held (c : Thread nD τ) (Pipeline.ucRefs τ sig) (Gen.V4 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (into1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (into1 m c) (into1_arr m c)
    rw [Pipeline.unscopedBufs_held c (Gen.V3 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (entry1 m) c).Φ 0 from rfl]
    refine BIBase.Entails.trans ?_ (hin1 (entry1 m) c)
    unfold Pipeline.ΦA
    iintro ⟨Hp, -, Hr⟩
    isplitl [Hr]; · iexact Hr
    iexact Hp
  hout c := by
    rw [Pipeline.ownSems0_none, show (pdats m 1 c).Φ (Fin.last _) = (dat1 (entry1 m) c).Φ (Fin.last cfg1.N) from rfl]
    refine BIBase.Entails.trans (hout1 (entry1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (into1 m c) (fun b => Gen.V4 m (outs m) c b) ((pdats m 1 c).arrAt · cfg1.N) (exit1_arr m c) (exit1_rest m c)
    rw [Pipeline.unscopedBufs_held c (Gen.V4 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch

The launch element is the pipeline library's own at every staging cell, and no core gets a ghost resource beside it.
What the launch deals a core, less its buffers, makes the rest: the generator register at its launch state, the dues at nothing. -/

/-- The launch element yields the pipeline library's, and nothing per core. -/
theorem fund :
    (ownU (initOf (Pipeline.cells cfgs cellOf_inj) (Pipeline.launchToks cfgs cellOf_inj)) : sProp 𝕄)
      ⊢ |={Set.univ}=> iprop(BI.own ((emb₁ : Emb (UR sig nD τ) 𝕄) (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- On every core at once, what the launch deals beside the buffers makes the rest. -/
theorem rest_launch (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noPairs lvl0)
      ⊢ (|={Set.univ}=> bigSep Finset.univ (fun c : Dev nD => rest (F := F) c) : sProp 𝕄) := by
  refine Pipeline.initEach noPairs lvl0 fun c => ?_
  iintro ⟨⟨-, HO, -, Hp, -⟩, -⟩
  imodintro
  isplitl [Hp]; · iexists _; iexact Hp
  iexists ∅; iexact HO

/-- The rest ends owing nothing. -/
theorem rest_owes (c : Dev nD) :
    rest (F := F) c ⊢ (iprop(∃ W, owes (c : Thread nD τ) (0 : CellTallies nD τ sig Unit) W) : sProp 𝕄) := by
  iintro ⟨-, HO⟩; iexact HO

set_option backward.isDefEq.respectTransparency.types false in
/-- THE FRAME: every weakly fair execution of @main terminates, nothing faulting, the arguments unchanged. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  -- the generated conditional frame, at the two records; each record's thread states are the generated ones on the nose
  Gen.frame_cond m (emb₁ : Emb (UR sig nD τ) 𝕄) () noVar noPairs lvl0 (fun _ _ => rfl) ρ (outs m) (pdats m)
    (O₀ := 0) (G := fun _ => iprop(emp))
    (u₀ := initOf (Pipeline.cells cfgs cellOf_inj) (Pipeline.launchToks cfgs cellOf_inj)) (hu₀ := fund)
    (E := fun _ c => rest c) (hE0 := rest_launch ρ) (hE2 := rest_owes)
    (R0 := reg0 m) (hpre0 := fun _ => .rfl) (hpost0 := fun _ => .rfl)
    (R1 := reg1 m) (hpre1 := fun _ => .rfl) (hpost1 := fun _ => .rfl)

end Cert.Kernel.Hand

end
-- ==== Proof.IdealBody0.lean ====
/-
  Layer 0 of the idealized kernel, at the contents `V` its region is entered with.

  The grid has 25 points; point t multiplies rows 400t … 400t+399 of the adjacency matrix with the
  node features. The features x·W + b are computed once, at point 0, into a scratch buffer that
  every point then reads: after EVERY point the scratch holds that one array (`fts0`), which does
  not depend on the point. So the region's invariant is: before point 0 the scratch is anything;
  from then on it holds `fts0`. Point t leaves in the output block the clipped product of its
  adjacency rows with `fts0`.
-/
import proofs.«142951_g14259291422968_cont_week2b_117_5_alg».proof.Proof.Gen.KernelIdeal.Launch
import proofs.«142951_g14259291422968_cont_week2b_117_5_alg».proof.Proof.Gen.KernelIdeal.Skeleton
import proofs.«142951_g14259291422968_cont_week2b_117_5_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch -/

/-- The body's one branch condition, from the grid coordinate: the coordinate compared with zero, the bit widened
    and compared with zero again. -/
abbrev cond0 (i : grid0.Coords) : Prop :=
  (Scalar.cmpi .ne (Scalar.extui (Scalar.cmpi .eq (BitVec.ofNat 32 (i 0).val) 0#32)) 0#32) = 1#1

/-- It holds at the first point and at no other: decided over the 25 points. -/
theorem hcond0 : ∀ t : Fin cfg0.N, cond0 (grid0.coords t) ↔ t.val = 0 :=
  (by decide +kernel : ∀ t : Fin grid0.N, cond0 (grid0.coords t) ↔ t.val = 0)

/-! ## Whole-buffer accesses

Every load and store of the body goes through the rectangle that is the whole buffer, at the origin. -/

/-- The offsets of a rank-2 access at the origin are the zero function. -/
theorem hz0 : (![0, 0] : Fin 2 → Nat) = fun _ => 0 := funext fun a => by fin_cases a <;> rfl

/-- A load through the whole-buffer rectangle at the origin reads the buffer's contents. -/
theorem load_whole0 {Val : EltTy → Type} {sg : RefSig} {κ : Kind} {sp : Space} {S : Shape} {e : EltTy}
    (v : View sg κ sp S e) (f : v.ty.Contents Val) {off : Fin S.rank → Nat} (hz : off = fun _ => 0)
    (inb : ∀ a, off a + S.size a ≤ S.size a) :
    v.readAt Val (Rect.unit off S.size inb).toLoadRect f = v.read Val f :=
  (View.readAt_eq_ld v f (Rect.unit off S.size inb)).trans (View.ld_unit_zero hz inb _)

/-- One store through it, over any earlier contents, reads back as the stored payload: its one piece holds every index. -/
theorem read_store_whole0 {Val : EltTy → Type} [∀ e, Nonempty (Val e)] {sg : RefSig} {κ : Kind} {sp : Space} {S : Shape} {e : EltTy}
    (v : View sg κ sp S e) (f : v.ty.Contents Val) {off : Fin S.rank → Nat} (hz : off = fun _ => 0)
    (inb : ∀ a, off a + S.size a ≤ S.size a) (p : S.Idx → Val e) :
    v.read Val (v.writes Val f [(⟨Rect.unit off S.size inb, p⟩ : View.Piece Val S e)]) = p := by
  rw [View.read_writes_eq_canon v f _ (fun y => ⟨_, List.mem_singleton_self _, View.mem_set_unit_zero hz inb y⟩),
    View.canon_unit_zero hz inb p]

/-! ## The body's triple, at the first point and at a later one -/

set_option maxHeartbeats 1000000 in
/-- AT THE FIRST POINT (the branch taken). The feature, weight and bias buffers at `x`, `w`, `b`, the adjacency tile at `a`,
    the output tile and the scratch at anything: the body stores `k0_pay1 x w b` whole into the scratch, reads it back,
    and stores `k0_pay2 a (k0_pay1 x w b)` whole into the output tile; the four inputs are left as they were. -/
theorem sound_kernel0_first (c : Dev nD) (E : Set ℕ) (i : grid0.Coords) (hc : cond0 i)
    (mx : Memref sig .tc .vmem S10000x128 .f32) (hmx : mx.IsWhole) (mw : Memref sig .tc .vmem S128x128 .f32) (hmw : mw.IsWhole)
    (mb : Memref sig .tc .vmem S1x128 .f32) (hmb : mb.IsWhole) (ma : Memref sig .tc .vmem S400x10000 .f32) (hma : ma.IsWhole)
    (mo : Memref sig .tc .vmem S400x128 .f32) (hmo : mo.IsWhole) (ms : Memref sig .tc .vmem S10000x128 .bf16) (hms : ms.IsWhole)
    (x : Vec F S10000x128 .f32) (w : Vec F S128x128 .f32) (b : Vec F S1x128 .f32) (a : Vec F S400x10000 .f32)
    (K : PUnit → sProp 𝕄) :
    iprop(owns (c : Thread nD τ) mx fullShare x ∗ owns (c : Thread nD τ) mw fullShare w ∗ owns (c : Thread nD τ) mb fullShare b
        ∗ owns (c : Thread nD τ) ma fullShare a ∗ (∃ d, owns (c : Thread nD τ) mo fullShare d) ∗ (∃ d, owns (c : Thread nD τ) ms fullShare d)
        ∗ (iprop(owns (c : Thread nD τ) mx fullShare x ∗ owns (c : Thread nD τ) mw fullShare w ∗ owns (c : Thread nD τ) mb fullShare b
            ∗ owns (c : Thread nD τ) ma fullShare a ∗ owns (c : Thread nD τ) mo fullShare (k0_pay2 a (k0_pay1 x w b))
            ∗ owns (c : Thread nD τ) ms fullShare (k0_pay1 x w b)) -∗ K ⟨⟩))
      ⊢ wp frame (wpE (defs₀ (F := F)) Variants.none c none) E (cc0__layer_body i mx hmx mw hmw mb hmb ma hma mo hmo ms hms) K := by
  simp only [cc0__layer_body_eq_skeleton]; unfold cc0__layer_body_skel
  unfold owns
  iintro ⟨⟨%fx, %hfx, Hx⟩, ⟨%fw, %hfw, Hw⟩, ⟨%fb, %hfb, Hb⟩, ⟨%fa, %hfa, Ha⟩, ⟨%dd, %fo, -, Ho⟩, ⟨%ds, %fs, -, Hs⟩, Hk⟩
  subst hfx; subst hfw; subst hfb; subst hfa
  sl_exec (disch := first | exact hc)
  sl_step
  iapply Hk
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  isplitl [Ha]
  · iexists fa; isplitr; · ipureintro; rfl
    iexact Ha
  isplitl [Ho]
  · iexists _; isplitr
    swap; · iexact Ho
    ipureintro
    sl_unfold_run_names
    rw [read_store_whole0 _ _ hz0, View.readCov_unit_zero _ hz0]
    simp only [load_whole0 (S := S10000x128) _ _ hz0, load_whole0 (S := S128x128) _ _ hz0, load_whole0 (S := S1x128) _ _ hz0, load_whole0 (S := S400x10000) _ _ hz0]
  iexists _; isplitr
  swap; · iexact Hs
  ipureintro
  sl_unfold_run_names
  rw [read_store_whole0 _ _ hz0]
  simp only [load_whole0 (S := S10000x128) _ _ hz0, load_whole0 (S := S128x128) _ _ hz0, load_whole0 (S := S1x128) _ _ hz0, load_whole0 (S := S400x10000) _ _ hz0]

set_option maxHeartbeats 1000000 in
/-- AT A LATER POINT (the branch not taken). The adjacency tile at `a`, the scratch at `s`, the output tile at anything: the
    body stores `k0_pay2 a s` whole into the output tile and writes nothing else; the three whole-array inputs are not
    touched at all. -/
theorem sound_kernel0_later (c : Dev nD) (E : Set ℕ) (i : grid0.Coords) (hc : ¬cond0 i)
    (mx : Memref sig .tc .vmem S10000x128 .f32) (hmx : mx.IsWhole) (mw : Memref sig .tc .vmem S128x128 .f32) (hmw : mw.IsWhole)
    (mb : Memref sig .tc .vmem S1x128 .f32) (hmb : mb.IsWhole) (ma : Memref sig .tc .vmem S400x10000 .f32) (hma : ma.IsWhole)
    (mo : Memref sig .tc .vmem S400x128 .f32) (hmo : mo.IsWhole) (ms : Memref sig .tc .vmem S10000x128 .bf16) (hms : ms.IsWhole)
    (a : Vec F S400x10000 .f32) (s : Vec F S10000x128 .bf16)
    (K : PUnit → sProp 𝕄) :
    iprop(owns (c : Thread nD τ) ma fullShare a ∗ (∃ d, owns (c : Thread nD τ) mo fullShare d) ∗ owns (c : Thread nD τ) ms fullShare s
        ∗ (iprop(owns (c : Thread nD τ) ma fullShare a ∗ owns (c : Thread nD τ) mo fullShare (k0_pay2 a s)
            ∗ owns (c : Thread nD τ) ms fullShare s) -∗ K ⟨⟩))
      ⊢ wp frame (wpE (defs₀ (F := F)) Variants.none c none) E (cc0__layer_body i mx hmx mw hmw mb hmb ma hma mo hmo ms hms) K := by
  simp only [cc0__layer_body_eq_skeleton]; unfold cc0__layer_body_skel
  unfold owns
  iintro ⟨⟨%fa, %hfa, Ha⟩, ⟨%dd, %fo, -, Ho⟩, ⟨%fs, %hfs, Hs⟩, Hk⟩
  subst hfa; subst hfs
  sl_exec (disch := first | exact hc)
  sl_step
  iapply Hk
  isplitl [Ha]
  · iexists fa; isplitr; · ipureintro; rfl
    iexact Ha
  isplitl [Ho]
  · iexists _; isplitr
    swap; · iexact Ho
    ipureintro
    sl_unfold_run_names
    rw [read_store_whole0 _ _ hz0]
    simp only [load_whole0 (S := S10000x128) _ _ hz0, load_whole0 (S := S128x128) _ _ hz0, load_whole0 (S := S1x128) _ _ hz0, load_whole0 (S := S400x10000) _ _ hz0]
  iexists fs; isplitr; · ipureintro; rfl
  iexact Hs

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid's first point. -/
abbrev first0 : Fin cfg0.N := ⟨0, by decide⟩

/-- The node features x·W + b the first point leaves in the scratch (windows 0, 1, 2 are whole arrays, the same block at every point). -/
def fts0 (c : Dev nD) : Vec F S10000x128 .bf16 :=
  k0_pay1 (iblk0 V c 0 first0) (iblk0 V c 1 first0) (iblk0 V c 2 first0)

/-- The scratch buffer the kernel keeps the features in, as the body is passed it. -/
abbrev scr0 : Memref sig .tc .vmem S10000x128 .bf16 := Memref.whole cc0_scratch0

/-- The region's invariant before position `n`: before the first point the class's (every scoped buffer that is no
    staging buffer at anything, the generator register at some state); afterwards the scratch at `fts0`, beside what
    makes the class's invariant again once the scratch is handed back at any contents. -/
def Phi0 (c : Dev nD) (n : ℕ) : sProp 𝕄 :=
  if n = 0 then Pipeline.ΦA spec0 c
  else iprop(owns (c : Thread nD τ) scr0 fullShare (fts0 V c)
    ∗ ((∃ d, owns (c : Thread nD τ) scr0 fullShare d) -∗ Pipeline.ΦA spec0 c))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (iblk0 V c 3 t) (fts0 V c)
  Φ t := Phi0 V c t.val
  q _ := fullShare
  owed _ := 0

theorem A_eq0 (c : Dev nD) (w : Fin cfg0.W) : (dat0 V c).A w = V c (Pipeline.arrRef spec0 w) := by
  dsimp only [dat0]
theorem after0_4 (c : Dev nD) (t : Fin cfg0.N) : (dat0 V c).after 4 t = k0_pay2 (iblk0 V c 3 t) (fts0 V c) := by dsimp only [dat0]

/-! ## What each window's buffer holds when the body runs -/

/-- What the body leaves in the input windows' buffers: their blocks, untouched. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]

/-- An input window's buffer holds the window's block at every point, whether the pipeline fetched it there or not: where it
    did not, the block index has not moved since the fetch and the body left the block in place. The windows are uncut and
    never idle. Window 0 (the node features, the whole array, fetched at the first point only): -/
theorem before0_0 (c : Dev nD) (t : Fin cfg0.N) (d) : (dat0 V c).before 0 t d = iblk0 V c 0 t := by
  rw [(dat0 V c).before_in_eq_fetched 0 rfl (fun _ => rfl) (fun _ _ _ => rfl) (fun t => by rw [after0_0]; rfl) t d]
  rfl
/-- window 1 (the weights, the whole array), -/
theorem before0_1 (c : Dev nD) (t : Fin cfg0.N) (d) : (dat0 V c).before 1 t d = iblk0 V c 1 t := by
  rw [(dat0 V c).before_in_eq_fetched 1 rfl (fun _ => rfl) (fun _ _ _ => rfl) (fun t => by rw [after0_1]; rfl) t d]
  rfl
/-- window 2 (the bias, the whole array), -/
theorem before0_2 (c : Dev nD) (t : Fin cfg0.N) (d) : (dat0 V c).before 2 t d = iblk0 V c 2 t := by
  rw [(dat0 V c).before_in_eq_fetched 2 rfl (fun _ => rfl) (fun _ _ _ => rfl) (fun t => by rw [after0_2]; rfl) t d]
  rfl
/-- window 3 (the adjacency rows of the point, fetched at every point). -/
theorem before0_3 (c : Dev nD) (t : Fin cfg0.N) (d) : (dat0 V c).before 3 t d = iblk0 V c 3 t := by
  rw [(dat0 V c).before_in_eq_fetched 3 rfl (fun _ => rfl) (fun _ _ _ => rfl) (fun t => by rw [after0_3]; rfl) t d]
  rfl

/-! ## The invariant, case by case -/

theorem Phi0_zero (c : Dev nD) : Phi0 V c 0 = Pipeline.ΦA spec0 c := if_pos rfl

theorem Phi0_pos (c : Dev nD) (n : ℕ) (h : n ≠ 0) :
    Phi0 V c n = iprop(owns (c : Thread nD τ) scr0 fullShare (fts0 V c)
      ∗ ((∃ d, owns (c : Thread nD τ) scr0 fullShare d) -∗ Pipeline.ΦA spec0 c)) := if_neg h

/-- The class invariant with this region's scratch split off: the scratch owned whole at some contents, the core's other
    scoped buffers that are no staging buffer of this region (unopened), the generator register at some state. -/
theorem PhiA0_eq (c : Dev nD) :
    (Pipeline.ΦA spec0 c : sProp 𝕄)
      = iprop(((∃ d, owns (c : Thread nD τ) scr0 fullShare d)
          ∗ Pipeline.scopedRestBut (Ix := Unit) (Name := ℕ) (U := UR sig nD τ) (Lvl := ℕ) (Val := Elt F) spec0 c [cc0_scratch0])
        ∗ ∃ r, prngReg c r) := by
  unfold Pipeline.ΦA
  rw [Pipeline.scopedRest_split_of_list spec0 c [cc0_scratch0] (by decide) (by decide)]
  simp only [scr0, owns_whole]
  rfl

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point. The four input buffers hold their blocks. AT THE FIRST POINT the invariant is the class's: the
    scratch is taken out of it at anything, the body fills it with the features of the first point's blocks, which is `fts0`,
    and the rest of the class invariant is kept behind a wand that takes the scratch back at any contents. AT A LATER POINT the
    scratch comes at `fts0` and goes back unchanged, and the wand passes through. Either way the output tile ends at the
    clipped product of the point's adjacency rows with `fts0`; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.castSucc = Phi0 V c t.val from rfl,
    show (dat0 V c).Φ t.succ = Phi0 V c (t.val + 1) from rfl,
    Phi0_pos V c _ (Nat.succ_ne_zero _), after0_0, after0_1, after0_2, after0_3, after0_4]
  by_cases hz : t.val = 0
  · obtain rfl : t = first0 := Fin.ext hz
    rw [Phi0_zero, PhiA0_eq]
    unfold fts0
    iintro ⟨⟨⟨Hs, Hr⟩, Hg⟩, Ho, ⟨%dx, Hx⟩, ⟨%dw, Hw⟩, ⟨%db, Hb⟩, ⟨%da, Ha⟩, ⟨%dd, Hd⟩⟩
    iapply (sound_kernel0_first c Set.univ _ ((hcond0 first0).mpr rfl) _ _ _ _ _ _ _ _ _ _ _ _
      (iblk0 V c 0 first0) (iblk0 V c 1 first0) (iblk0 V c 2 first0) (iblk0 V c 3 first0) _)
    isplitl [Hx]; · iexact Hx
    isplitl [Hw]; · iexact Hw
    isplitl [Hb]; · iexact Hb
    isplitl [Ha]; · iexact Ha
    isplitl [Hd]; · iexists _; iexact Hd
    isplitl [Hs]; · iexact Hs
    iintro ⟨Hx, Hw, Hb, Ha, Hd, Hs⟩
    isplitl [Hs Hr Hg]
    · isplitl [Hs]; · iexact Hs
      iintro Hn
      isplitl [Hn Hr]
      · isplitl [Hn]; · iexact Hn
        iexact Hr
      iexact Hg
    isplitl [Ho]; · iexact Ho
    isplitl [Hx]; · iexact Hx
    isplitl [Hw]; · iexact Hw
    isplitl [Hb]; · iexact Hb
    isplitl [Ha]; · iexact Ha
    iexact Hd
  · rw [Phi0_pos V c _ hz]
    iintro ⟨⟨Hs, Hr⟩, Ho, ⟨%dx, Hx⟩, ⟨%dw, Hw⟩, ⟨%db, Hb⟩, ⟨%da, Ha⟩, ⟨%dd, Hd⟩⟩
    iapply (sound_kernel0_later c Set.univ _ (fun h => hz ((hcond0 t).mp h)) _ _ _ _ _ _ _ _ _ _ _ _
      (iblk0 V c 3 t) (fts0 V c) _)
    isplitl [Ha]; · iexact Ha
    isplitl [Hd]; · iexists _; iexact Hd
    isplitl [Hs]; · iexact Hs
    iintro ⟨Ha, Hd, Hs⟩
    isplitl [Hs Hr]
    · isplitl [Hs]; · iexact Hs
      iexact Hr
    isplitl [Ho]; · iexact Ho
    isplitl [Hx]; · iexact Hx
    isplitl [Hw]; · iexact Hw
    isplitl [Hb]; · iexact Hb
    isplitl [Ha]; · iexact Ha
    iexact Hd

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 from rfl, Phi0_zero]

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = Phi0 V c cfg0.N from rfl,
    Phi0_pos V c _ (by have hN : cfg0.N = 25 := N_0; omega)]
  iintro ⟨Hs, Hr⟩
  iapply Hr
  iexists _; iexact Hs

end

end Cert.KernelIdeal.Hand

end
-- ==== Proof.IdealBody1.lean ====
/-
  Layer 1 of the idealized kernel, at the contents `V` its region is entered with.

  The grid has 25 points; point t multiplies rows 400t … 400t+399 of the adjacency matrix with the
  node features. The features x·W + b are computed once, at point 0, into a scratch buffer that
  every point then reads: after EVERY point the scratch holds that one array (`fts1`), which does
  not depend on the point. So the region's invariant is: before point 0 the scratch is anything;
  from then on it holds `fts1`. Point t leaves in the output block the clipped product of its
  adjacency rows with `fts1`.
-/
import proofs.«142951_g14259291422968_cont_week2b_117_5_alg».proof.Proof.Gen.KernelIdeal.Launch
import proofs.«142951_g14259291422968_cont_week2b_117_5_alg».proof.Proof.Gen.KernelIdeal.Skeleton
import proofs.«142951_g14259291422968_cont_week2b_117_5_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch -/

/-- The body's one branch condition, from the grid coordinate: the coordinate compared with zero, the bit widened
    and compared with zero again. -/
abbrev cond1 (i : grid1.Coords) : Prop :=
  (Scalar.cmpi .ne (Scalar.extui (Scalar.cmpi .eq (BitVec.ofNat 32 (i 0).val) 0#32)) 0#32) = 1#1

/-- It holds at the first point and at no other: decided over the 25 points. -/
theorem hcond1 : ∀ t : Fin cfg1.N, cond1 (grid1.coords t) ↔ t.val = 0 :=
  (by decide +kernel : ∀ t : Fin grid1.N, cond1 (grid1.coords t) ↔ t.val = 0)

/-! ## Whole-buffer accesses

Every load and store of the body goes through the rectangle that is the whole buffer, at the origin. -/

/-- The offsets of a rank-2 access at the origin are the zero function. -/
theorem hz1 : (![0, 0] : Fin 2 → Nat) = fun _ => 0 := funext fun a => by fin_cases a <;> rfl

/-- A load through the whole-buffer rectangle at the origin reads the buffer's contents. -/
theorem load_whole1 {Val : EltTy → Type} {sg : RefSig} {κ : Kind} {sp : Space} {S : Shape} {e : EltTy}
    (v : View sg κ sp S e) (f : v.ty.Contents Val) {off : Fin S.rank → Nat} (hz : off = fun _ => 0)
    (inb : ∀ a, off a + S.size a ≤ S.size a) :
    v.readAt Val (Rect.unit off S.size inb).toLoadRect f = v.read Val f :=
  (View.readAt_eq_ld v f (Rect.unit off S.size inb)).trans (View.ld_unit_zero hz inb _)

/-- One store through it, over any earlier contents, reads back as the stored payload: its one piece holds every index. -/
theorem read_store_whole1 {Val : EltTy → Type} [∀ e, Nonempty (Val e)] {sg : RefSig} {κ : Kind} {sp : Space} {S : Shape} {e : EltTy}
    (v : View sg κ sp S e) (f : v.ty.Contents Val) {off : Fin S.rank → Nat} (hz : off = fun _ => 0)
    (inb : ∀ a, off a + S.size a ≤ S.size a) (p : S.Idx → Val e) :
    v.read Val (v.writes Val f [(⟨Rect.unit off S.size inb, p⟩ : View.Piece Val S e)]) = p := by
  rw [View.read_writes_eq_canon v f _ (fun y => ⟨_, List.mem_singleton_self _, View.mem_set_unit_zero hz inb y⟩),
    View.canon_unit_zero hz inb p]

/-! ## The body's triple, at the first point and at a later one -/

set_option maxHeartbeats 1000000 in
/-- AT THE FIRST POINT (the branch taken). The feature, weight and bias buffers at `x`, `w`, `b`, the adjacency tile at `a`,
    the output tile and the scratch at anything: the body stores `k1_pay1 x w b` whole into the scratch, reads it back,
    and stores `k1_pay2 a (k1_pay1 x w b)` whole into the output tile; the four inputs are left as they were. -/
theorem sound_kernel1_first (c : Dev nD) (E : Set ℕ) (i : grid1.Coords) (hc : cond1 i)
    (mx : Memref sig .tc .vmem S10000x128 .f32) (hmx : mx.IsWhole) (mw : Memref sig .tc .vmem S128x128 .f32) (hmw : mw.IsWhole)
    (mb : Memref sig .tc .vmem S1x128 .f32) (hmb : mb.IsWhole) (ma : Memref sig .tc .vmem S400x10000 .f32) (hma : ma.IsWhole)
    (mo : Memref sig .tc .vmem S400x128 .f32) (hmo : mo.IsWhole) (ms : Memref sig .tc .vmem S10000x128 .bf16) (hms : ms.IsWhole)
    (x : Vec F S10000x128 .f32) (w : Vec F S128x128 .f32) (b : Vec F S1x128 .f32) (a : Vec F S400x10000 .f32)
    (K : PUnit → sProp 𝕄) :
    iprop(owns (c : Thread nD τ) mx fullShare x ∗ owns (c : Thread nD τ) mw fullShare w ∗ owns (c : Thread nD τ) mb fullShare b
        ∗ owns (c : Thread nD τ) ma fullShare a ∗ (∃ d, owns (c : Thread nD τ) mo fullShare d) ∗ (∃ d, owns (c : Thread nD τ) ms fullShare d)
        ∗ (iprop(owns (c : Thread nD τ) mx fullShare x ∗ owns (c : Thread nD τ) mw fullShare w ∗ owns (c : Thread nD τ) mb fullShare b
            ∗ owns (c : Thread nD τ) ma fullShare a ∗ owns (c : Thread nD τ) mo fullShare (k1_pay2 a (k1_pay1 x w b))
            ∗ owns (c : Thread nD τ) ms fullShare (k1_pay1 x w b)) -∗ K ⟨⟩))
      ⊢ wp frame (wpE (defs₀ (F := F)) Variants.none c none) E (cc1__layer_body i mx hmx mw hmw mb hmb ma hma mo hmo ms hms) K := by
  simp only [cc1__layer_body_eq_skeleton]; unfold cc1__layer_body_skel
  unfold owns
  iintro ⟨⟨%fx, %hfx, Hx⟩, ⟨%fw, %hfw, Hw⟩, ⟨%fb, %hfb, Hb⟩, ⟨%fa, %hfa, Ha⟩, ⟨%dd, %fo, -, Ho⟩, ⟨%ds, %fs, -, Hs⟩, Hk⟩
  subst hfx; subst hfw; subst hfb; subst hfa
  sl_exec (disch := first | exact hc)
  sl_step
  iapply Hk
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  isplitl [Ha]
  · iexists fa; isplitr; · ipureintro; rfl
    iexact Ha
  isplitl [Ho]
  · iexists _; isplitr
    swap; · iexact Ho
    ipureintro
    sl_unfold_run_names
    rw [read_store_whole1 _ _ hz1, View.readCov_unit_zero _ hz1]
    simp only [load_whole1 (S := S10000x128) _ _ hz1, load_whole1 (S := S128x128) _ _ hz1, load_whole1 (S := S1x128) _ _ hz1, load_whole1 (S := S400x10000) _ _ hz1]
  iexists _; isplitr
  swap; · iexact Hs
  ipureintro
  sl_unfold_run_names
  rw [read_store_whole1 _ _ hz1]
  simp only [load_whole1 (S := S10000x128) _ _ hz1, load_whole1 (S := S128x128) _ _ hz1, load_whole1 (S := S1x128) _ _ hz1, load_whole1 (S := S400x10000) _ _ hz1]

set_option maxHeartbeats 1000000 in
/-- AT A LATER POINT (the branch not taken). The adjacency tile at `a`, the scratch at `s`, the output tile at anything: the
    body stores `k1_pay2 a s` whole into the output tile and writes nothing else; the three whole-array inputs are not
    touched at all. -/
theorem sound_kernel1_later (c : Dev nD) (E : Set ℕ) (i : grid1.Coords) (hc : ¬cond1 i)
    (mx : Memref sig .tc .vmem S10000x128 .f32) (hmx : mx.IsWhole) (mw : Memref sig .tc .vmem S128x128 .f32) (hmw : mw.IsWhole)
    (mb : Memref sig .tc .vmem S1x128 .f32) (hmb : mb.IsWhole) (ma : Memref sig .tc .vmem S400x10000 .f32) (hma : ma.IsWhole)
    (mo : Memref sig .tc .vmem S400x128 .f32) (hmo : mo.IsWhole) (ms : Memref sig .tc .vmem S10000x128 .bf16) (hms : ms.IsWhole)
    (a : Vec F S400x10000 .f32) (s : Vec F S10000x128 .bf16)
    (K : PUnit → sProp 𝕄) :
    iprop(owns (c : Thread nD τ) ma fullShare a ∗ (∃ d, owns (c : Thread nD τ) mo fullShare d) ∗ owns (c : Thread nD τ) ms fullShare s
        ∗ (iprop(owns (c : Thread nD τ) ma fullShare a ∗ owns (c : Thread nD τ) mo fullShare (k1_pay2 a s)
            ∗ owns (c : Thread nD τ) ms fullShare s) -∗ K ⟨⟩))
      ⊢ wp frame (wpE (defs₀ (F := F)) Variants.none c none) E (cc1__layer_body i mx hmx mw hmw mb hmb ma hma mo hmo ms hms) K := by
  simp only [cc1__layer_body_eq_skeleton]; unfold cc1__layer_body_skel
  unfold owns
  iintro ⟨⟨%fa, %hfa, Ha⟩, ⟨%dd, %fo, -, Ho⟩, ⟨%fs, %hfs, Hs⟩, Hk⟩
  subst hfa; subst hfs
  sl_exec (disch := first | exact hc)
  sl_step
  iapply Hk
  isplitl [Ha]
  · iexists fa; isplitr; · ipureintro; rfl
    iexact Ha
  isplitl [Ho]
  · iexists _; isplitr
    swap; · iexact Ho
    ipureintro
    sl_unfold_run_names
    rw [read_store_whole1 _ _ hz1]
    simp only [load_whole1 (S := S10000x128) _ _ hz1, load_whole1 (S := S128x128) _ _ hz1, load_whole1 (S := S1x128) _ _ hz1, load_whole1 (S := S400x10000) _ _ hz1]
  iexists fs; isplitr; · ipureintro; rfl
  iexact Hs

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The grid's first point. -/
abbrev first1 : Fin cfg1.N := ⟨0, by decide⟩

/-- The node features x·W + b the first point leaves in the scratch (windows 0, 1, 2 are whole arrays, the same block at every point). -/
def fts1 (c : Dev nD) : Vec F S10000x128 .bf16 :=
  k1_pay1 (iblk1 V c 0 first1) (iblk1 V c 1 first1) (iblk1 V c 2 first1)

/-- The scratch buffer the kernel keeps the features in, as the body is passed it. -/
abbrev scr1 : Memref sig .tc .vmem S10000x128 .bf16 := Memref.whole cc1_scratch0

/-- The region's invariant before position `n`: before the first point the class's (every scoped buffer that is no
    staging buffer at anything, the generator register at some state); afterwards the scratch at `fts1`, beside what
    makes the class's invariant again once the scratch is handed back at any contents. -/
def Phi1 (c : Dev nD) (n : ℕ) : sProp 𝕄 :=
  if n = 0 then Pipeline.ΦA spec1 c
  else iprop(owns (c : Thread nD τ) scr1 fullShare (fts1 V c)
    ∗ ((∃ d, owns (c : Thread nD τ) scr1 fullShare d) -∗ Pipeline.ΦA spec1 c))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay2 (iblk1 V c 3 t) (fts1 V c)
  Φ t := Phi1 V c t.val
  q _ := fullShare
  owed _ := 0

theorem A_eq1 (c : Dev nD) (w : Fin cfg1.W) : (dat1 V c).A w = V c (Pipeline.arrRef spec1 w) := by
  dsimp only [dat1]
theorem after1_4 (c : Dev nD) (t : Fin cfg1.N) : (dat1 V c).after 4 t = k1_pay2 (iblk1 V c 3 t) (fts1 V c) := by dsimp only [dat1]

/-! ## What each window's buffer holds when the body runs -/

/-- What the body leaves in the input windows' buffers: their blocks, untouched. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

/-- An input window's buffer holds the window's block at every point, whether the pipeline fetched it there or not: where it
    did not, the block index has not moved since the fetch and the body left the block in place. The windows are uncut and
    never idle. Window 0 (the node features, the whole array, fetched at the first point only): -/
theorem before1_0 (c : Dev nD) (t : Fin cfg1.N) (d) : (dat1 V c).before 0 t d = iblk1 V c 0 t := by
  rw [(dat1 V c).before_in_eq_fetched 0 rfl (fun _ => rfl) (fun _ _ _ => rfl) (fun t => by rw [after1_0]; rfl) t d]
  rfl
/-- window 1 (the weights, the whole array), -/
theorem before1_1 (c : Dev nD) (t : Fin cfg1.N) (d) : (dat1 V c).before 1 t d = iblk1 V c 1 t := by
  rw [(dat1 V c).before_in_eq_fetched 1 rfl (fun _ => rfl) (fun _ _ _ => rfl) (fun t => by rw [after1_1]; rfl) t d]
  rfl
/-- window 2 (the bias, the whole array), -/
theorem before1_2 (c : Dev nD) (t : Fin cfg1.N) (d) : (dat1 V c).before 2 t d = iblk1 V c 2 t := by
  rw [(dat1 V c).before_in_eq_fetched 2 rfl (fun _ => rfl) (fun _ _ _ => rfl) (fun t => by rw [after1_2]; rfl) t d]
  rfl
/-- window 3 (the adjacency rows of the point, fetched at every point). -/
theorem before1_3 (c : Dev nD) (t : Fin cfg1.N) (d) : (dat1 V c).before 3 t d = iblk1 V c 3 t := by
  rw [(dat1 V c).before_in_eq_fetched 3 rfl (fun _ => rfl) (fun _ _ _ => rfl) (fun t => by rw [after1_3]; rfl) t d]
  rfl

/-! ## The invariant, case by case -/

theorem Phi1_zero (c : Dev nD) : Phi1 V c 0 = Pipeline.ΦA spec1 c := if_pos rfl

theorem Phi1_pos (c : Dev nD) (n : ℕ) (h : n ≠ 0) :
    Phi1 V c n = iprop(owns (c : Thread nD τ) scr1 fullShare (fts1 V c)
      ∗ ((∃ d, owns (c : Thread nD τ) scr1 fullShare d) -∗ Pipeline.ΦA spec1 c)) := if_neg h

/-- The class invariant with this region's scratch split off: the scratch owned whole at some contents, the core's other
    scoped buffers that are no staging buffer of this region (unopened), the generator register at some state. -/
theorem PhiA1_eq (c : Dev nD) :
    (Pipeline.ΦA spec1 c : sProp 𝕄)
      = iprop(((∃ d, owns (c : Thread nD τ) scr1 fullShare d)
          ∗ Pipeline.scopedRestBut (Ix := Unit) (Name := ℕ) (U := UR sig nD τ) (Lvl := ℕ) (Val := Elt F) spec1 c [cc1_scratch0])
        ∗ ∃ r, prngReg c r) := by
  unfold Pipeline.ΦA
  rw [Pipeline.scopedRest_split_of_list spec1 c [cc1_scratch0] (by decide) (by decide)]
  simp only [scr1, owns_whole]
  rfl

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point. The four input buffers hold their blocks. AT THE FIRST POINT the invariant is the class's: the
    scratch is taken out of it at anything, the body fills it with the features of the first point's blocks, which is `fts1`,
    and the rest of the class invariant is kept behind a wand that takes the scratch back at any contents. AT A LATER POINT the
    scratch comes at `fts1` and goes back unchanged, and the wand passes through. Either way the output tile ends at the
    clipped product of the point's adjacency rows with `fts1`; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.castSucc = Phi1 V c t.val from rfl,
    show (dat1 V c).Φ t.succ = Phi1 V c (t.val + 1) from rfl,
    Phi1_pos V c _ (Nat.succ_ne_zero _), after1_0, after1_1, after1_2, after1_3, after1_4]
  by_cases hz : t.val = 0
  · obtain rfl : t = first1 := Fin.ext hz
    rw [Phi1_zero, PhiA1_eq]
    unfold fts1
    iintro ⟨⟨⟨Hs, Hr⟩, Hg⟩, Ho, ⟨%dx, Hx⟩, ⟨%dw, Hw⟩, ⟨%db, Hb⟩, ⟨%da, Ha⟩, ⟨%dd, Hd⟩⟩
    iapply (sound_kernel1_first c Set.univ _ ((hcond1 first1).mpr rfl) _ _ _ _ _ _ _ _ _ _ _ _
      (iblk1 V c 0 first1) (iblk1 V c 1 first1) (iblk1 V c 2 first1) (iblk1 V c 3 first1) _)
    isplitl [Hx]; · iexact Hx
    isplitl [Hw]; · iexact Hw
    isplitl [Hb]; · iexact Hb
    isplitl [Ha]; · iexact Ha
    isplitl [Hd]; · iexists _; iexact Hd
    isplitl [Hs]; · iexact Hs
    iintro ⟨Hx, Hw, Hb, Ha, Hd, Hs⟩
    isplitl [Hs Hr Hg]
    · isplitl [Hs]; · iexact Hs
      iintro Hn
      isplitl [Hn Hr]
      · isplitl [Hn]; · iexact Hn
        iexact Hr
      iexact Hg
    isplitl [Ho]; · iexact Ho
    isplitl [Hx]; · iexact Hx
    isplitl [Hw]; · iexact Hw
    isplitl [Hb]; · iexact Hb
    isplitl [Ha]; · iexact Ha
    iexact Hd
  · rw [Phi1_pos V c _ hz]
    iintro ⟨⟨Hs, Hr⟩, Ho, ⟨%dx, Hx⟩, ⟨%dw, Hw⟩, ⟨%db, Hb⟩, ⟨%da, Ha⟩, ⟨%dd, Hd⟩⟩
    iapply (sound_kernel1_later c Set.univ _ (fun h => hz ((hcond1 t).mp h)) _ _ _ _ _ _ _ _ _ _ _ _
      (iblk1 V c 3 t) (fts1 V c) _)
    isplitl [Ha]; · iexact Ha
    isplitl [Hd]; · iexists _; iexact Hd
    isplitl [Hs]; · iexact Hs
    iintro ⟨Ha, Hd, Hs⟩
    isplitl [Hs Hr]
    · isplitl [Hs]; · iexact Hs
      iexact Hr
    isplitl [Ho]; · iexact Ho
    isplitl [Hx]; · iexact Hx
    isplitl [Hw]; · iexact Hw
    isplitl [Hb]; · iexact Hb
    isplitl [Ha]; · iexact Ha
    iexact Hd

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 from rfl, Phi1_zero]

/-- After the last point the invariant gives the class's back: the scratch's contents are forgotten. -/
theorem hout1 (c : Dev nD) : (dat1 V c).Φ (Fin.last cfg1.N) ⊢ Pipeline.ΦA spec1 c := by
  rw [show (dat1 V c).Φ (Fin.last cfg1.N) = Phi1 V c cfg1.N from rfl,
    Phi1_pos V c _ (by have hN : cfg1.N = 25 := N_1; omega)]
  iintro ⟨Hs, Hr⟩
  iapply Hr
  iexists _; iexact Hs

end

end Cert.KernelIdeal.Hand

end
-- ==== Proof.IdealRecords.lean ====
/-
  The idealized kernel's two regions as records of the several-regions launch, and its run.

  @main is: two reshapes; layer 0's region; one reshape; layer 1's region; one broadcast. Between two
  items every unscoped buffer is held at a known valuation: the launch memory, then each host stretch's
  operations applied, then — after a region — the region's output array at what its 25 write-backs leave
  (`Dat.arrAt … 25` of that region's proof data) and every other buffer as before. Region 1's proof data are
  stated at the valuation region 0 and the reshape after it leave, so its input array IS layer 0's output.
  The run ends with every unscoped buffer at the last valuation; the frame claim and the result's contents
  are read off it.
-/
import proofs.«142951_g14259291422968_cont_week2b_117_5_alg».proof.Proof.IdealBody0
import proofs.«142951_g14259291422968_cont_week2b_117_5_alg».proof.Proof.IdealBody1
import proofs.«142951_g14259291422968_cont_week2b_117_5_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What region 0 is entered with, read at the TensorCore's references: the launch memory after the two reshapes. -/
abbrev entry0 (c : Dev nD) (b : Ref sig .tc) : Buf (Elt F) ((c : Thread nD τ).loc b) := Gen.V1 m c b

/-- Layer 0's output array after its region: what the 25 write-backs leave. -/
def left0 (c : Dev nD) : Buf (Elt F) ((c : Thread nD τ).loc main_v2) := (dat0 (entry0 m) c).arrAt 4 cfg0.N

/-- The regions' outputs as far as region 0: `main_v2` at `left0`. -/
def outsUpTo0 : Gen.Outs (F := F) := fun _ r c =>
  Function.update (β := fun r' : Ref sig .tc => Buf (Elt F) ((c : Thread nD τ).loc r')) (fun r' => Gen.V1 m c r') main_v2 (left0 m c) r

/-- What region 1 is entered with: region 0's exit contents after the reshape between the regions. -/
abbrev entry1 (c : Dev nD) (b : Ref sig .tc) : Buf (Elt F) ((c : Thread nD τ).loc b) := Gen.V3 m (outsUpTo0 m) c b

/-- Layer 1's output array after its region. -/
def left1 (c : Dev nD) : Buf (Elt F) ((c : Thread nD τ).loc main_v4) := (dat1 (entry1 m) c).arrAt 4 cfg1.N

/-- What the regions leave in their output arrays: `main_v2` at `left0` after region 0, `main_v4` at `left1` after region 1. -/
def outs : Gen.Outs (F := F) := fun n r c =>
  if n = 4 then
    Function.update (β := fun r' : Ref sig .tc => Buf (Elt F) ((c : Thread nD τ).loc r')) (fun r' => Gen.V3 m (outsUpTo0 m) c r') main_v4 (left1 m c) r
  else outsUpTo0 m n r c

theorem outs_two (c : Dev nD) : outs m 2 main_v2 c = (dat0 (entry0 m) c).arrAt 4 cfg0.N := by
  -- index 2 is not region 1's, so this is the valuation region 0 is entered with, updated at `main_v2`, read at `main_v2`
  simp only [outs, if_neg (by decide : ¬ (2 : ℕ) = 4), outsUpTo0, Function.update_self, left0]

theorem outs_four (c : Dev nD) : outs m 4 main_v4 c = (dat1 (entry1 m) c).arrAt 4 cfg1.N := by
  -- index 4 is region 1's: the valuation before it updated at `main_v4`, read at `main_v4`
  simp only [outs, if_pos, Function.update_self, left1]

/-- Region 1's entry contents in terms of `outs`: the valuation the generated run names `V3`. -/
theorem entry1_eq (c : Dev nD) (b : Ref sig .tc) : entry1 m c b = Gen.V3 m (outs m) c b := by
  -- the valuation before region 1 reads the regions' outputs only at index 2, where the two families agree
  have h : outs m 2 main_v2 c = outsUpTo0 m 2 main_v2 c := by simp only [outs, if_neg (by decide : ¬ (2 : ℕ) = 4)]
  show StableHlo.after hostOps1 (Function.update (Gen.V1 m c) main_v2 (outsUpTo0 m 2 main_v2 c)) b
    = StableHlo.after hostOps1 (Function.update (Gen.V1 m c) main_v2 (outs m 2 main_v2 c)) b
  rw [h]

/-- Every pipeline's proof data, each at its region's entry contents. -/
def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

/-! ## What rides beside the buffers, and the launch's parameters

No core owes another anything, so no pair carries a level; the user algebra is the pipeline library's own. -/

/-- No variant beyond the library's. -/
abbrev noVar : Variants := Variants.none
/-- No pair of cells carries a level. -/
abbrev noPairs : GSem nD τ sig → Finset Unit := fun _ => ∅
/-- The level assignment (read nowhere). -/
abbrev lvl0 : GSem nD τ sig → Unit → ℕ := fun _ _ => 0

/-- Beside the unscoped buffers a core holds, between any two items, its generator register at some state and its
    dues at nothing. -/
abbrev rest (c : Dev nD) : sProp 𝕄 :=
  iprop((∃ r, prngReg c r) ∗ ∃ W, owes (c : Thread nD τ) (0 : CellTallies nD τ sig Unit) W)

/-! ## Region 0's exit valuation

After region 0 the array `main_v2` holds what the 25 write-backs leave and every other unscoped buffer is as at entry:
the four input windows' arrays because an input window's array is never written, the rest because no window names them. -/

/-- Each array of region 0, after the last point, is the exit valuation at that array. -/
theorem exit0_arr (c : Dev nD) : ∀ w : Fin cfg0.W,
    (pdats m 0 c).arrAt w cfg0.N = Gen.V2 m (outs m) c (Pipeline.arrRef spec0 w)
  | ⟨0, _⟩ => ((dat0 (entry0 m) c).arrAt_in 0 rfl _).trans (Gen.V2_of m (outs m) c main_v0 (by decide)).symm
  | ⟨1, _⟩ => ((dat0 (entry0 m) c).arrAt_in 1 rfl _).trans (Gen.V2_of m (outs m) c main_arg2 (by decide)).symm
  | ⟨2, _⟩ => ((dat0 (entry0 m) c).arrAt_in 2 rfl _).trans (Gen.V2_of m (outs m) c main_v1 (by decide)).symm
  | ⟨3, _⟩ => ((dat0 (entry0 m) c).arrAt_in 3 rfl _).trans (Gen.V2_of m (outs m) c main_arg1 (by decide)).symm
  | ⟨4, _⟩ => (outs_two m c).symm.trans (Function.update_self (β := fun b : DevRef τ sig => Buf (Elt F) ((c : Thread nD τ).1, b)) _ _ _).symm

/-- A buffer that is no array of region 0 is not `main_v2`, so the exit valuation has it as at entry. -/
theorem exit0_rest (c : Dev nD) (b : Ref sig .tc) (hb : b ∉ Finset.univ.image (Pipeline.arrRef spec0)) :
    Gen.V2 m (outs m) c b = entry0 m c b :=
  Gen.V2_of m (outs m) c b fun h => hb (by
    rw [List.mem_singleton] at h; subst h
    exact Finset.mem_image.mpr ⟨4, Finset.mem_univ _, rfl⟩)

set_option backward.isDefEq.respectTransparency.types false in
/-- REGION 0 over the thread state: entered with every unscoped buffer at the valuation after the two reshapes, left
    with `main_v2` at the write-backs' result and everything else unchanged. The five arrays are split out of the
    unscoped buffers and put back at the exit valuation; the generator register goes into the invariant and comes
    back; nothing is owed; the kernel has no semaphore of its own. -/
def reg0 : Pipeline.RegionSeg (pcfgs (F := F)) Gen.adm (pdats m) () defs₀ noVar noPairs lvl0 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ noPairs lvl0 0 fun _ _ => rfl
  pre c := iprop(StableHlo.held (c : Thread nD τ) (Pipeline.ucRefs τ sig) (Gen.V1 m c) ∗ rest c)
  post c := iprop(StableHlo.held (c : Thread nD τ) (Pipeline.ucRefs τ sig) (Gen.V2 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    -- the unscoped buffers at the entry valuation are the five arrays at the proof data's entry contents and the rest
    have hsplit := Pipeline.arrays_of_unscopedBufs (p := 0) (pcfgs (F := F)) Gen.adm (pdats m) launch0.win launch0.arr_whole c
      ((pdats m 0 c).share_full fun _ => rfl) (entry0 m c) fun _ => rfl
    rw [Pipeline.unscopedBufs_held c (Gen.V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the register and the scoped buffers no window stages make the class's invariant, which is the invariant before point 0
    rw [show (pdats m 0 c).Φ 0 = (dat0 (entry0 m) c).Φ 0 from rfl]
    refine BIBase.Entails.trans ?_ (hin0 (entry0 m) c)
    unfold Pipeline.ΦA
    iintro ⟨Hp, -, Hr⟩
    isplitl [Hr]; · iexact Hr
    iexact Hp
  hout c := by
    -- after the last point the invariant gives the class's back: the scoped buffers and the register
    rw [Pipeline.ownSems0_none, show (pdats m 0 c).Φ (Fin.last _) = (dat0 (entry0 m) c).Φ (Fin.last cfg0.N) from rfl]
    refine BIBase.Entails.trans (hout0 (entry0 m) c) ?_
    unfold Pipeline.ΦA
    iintro ⟨Hr, Hp⟩
    isplitl [Hp]; · iexact Hp
    isplitr; · iempintro
    iexact Hr
  hexit c := by
    -- the arrays at their last contents and the rest at the entry valuation are the unscoped buffers at the exit valuation
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (entry0 m c) (fun b => Gen.V2 m (outs m) c b) ((pdats m 0 c).arrAt · cfg0.N) (exit0_arr m c) (exit0_rest m c)
    rw [Pipeline.unscopedBufs_held c (Gen.V2 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1's exit valuation

Region 1 is entered at the valuation the reshape after region 0 leaves, read over the full family `outs`; its proof data
are stated over the family as far as region 0, and the two valuations agree (`entry1_eq`). After it `main_v4` holds
what its 25 write-backs leave and every other unscoped buffer is as at entry. -/

/-- The valuation region 1 is entered with, over the full family of outputs. -/
abbrev into1 (c : Dev nD) (b : Ref sig .tc) : Buf (Elt F) ((c : Thread nD τ).loc b) := Gen.V3 m (outs m) c b

/-- Each array of region 1, at entry, is the entry valuation at that array. -/
theorem into1_arr (c : Dev nD) (w : Fin cfg1.W) : (pdats m 1 c).A w = into1 m c (Pipeline.arrRef spec1 w) :=
  entry1_eq m c (Pipeline.arrRef spec1 w)

/-- Each array of region 1, after the last point, is the exit valuation at that array. -/
theorem exit1_arr (c : Dev nD) : ∀ w : Fin cfg1.W,
    (pdats m 1 c).arrAt w cfg1.N = Gen.V4 m (outs m) c (Pipeline.arrRef spec1 w)
  | ⟨0, _⟩ => ((dat1 (entry1 m) c).arrAt_in 0 rfl _).trans ((entry1_eq m c main_v2).trans (Gen.V4_of m (outs m) c main_v2 (by decide)).symm)
  | ⟨1, _⟩ => ((dat1 (entry1 m) c).arrAt_in 1 rfl _).trans ((entry1_eq m c main_arg4).trans (Gen.V4_of m (outs m) c main_arg4 (by decide)).symm)
  | ⟨2, _⟩ => ((dat1 (entry1 m) c).arrAt_in 2 rfl _).trans ((entry1_eq m c main_v3).trans (Gen.V4_of m (outs m) c main_v3 (by decide)).symm)
  | ⟨3, _⟩ => ((dat1 (entry1 m) c).arrAt_in 3 rfl _).trans ((entry1_eq m c main_arg1).trans (Gen.V4_of m (outs m) c main_arg1 (by decide)).symm)
  | ⟨4, _⟩ => (outs_four m c).symm.trans (Function.update_self (β := fun b : DevRef τ sig => Buf (Elt F) ((c : Thread nD τ).1, b)) _ _ _).symm

/-- A buffer that is no array of region 1 is not `main_v4`, so the exit valuation has it as at entry. -/
theorem exit1_rest (c : Dev nD) (b : Ref sig .tc) (hb : b ∉ Finset.univ.image (Pipeline.arrRef spec1)) :
    Gen.V4 m (outs m) c b = into1 m c b :=
  Gen.V4_of m (outs m) c b fun h => hb (by
    rw [List.mem_singleton] at h; subst h
    exact Finset.mem_image.mpr ⟨4, Finset.mem_univ _, rfl⟩)

set_option backward.isDefEq.respectTransparency.types false in
/-- REGION 1 over the thread state: entered with every unscoped buffer at the valuation after the reshape between the
    regions (so its first window's array is layer 0's output), left with `main_v4` at the write-backs' result and
    everything else unchanged. Same bookkeeping as region 0. -/
def reg1 : Pipeline.RegionSeg (pcfgs (F := F)) Gen.adm (pdats m) () defs₀ noVar noPairs lvl0 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ noPairs lvl0 1 fun _ _ => rfl
  pre c := iprop(StableHlo.held (c : Thread nD τ) (Pipeline.ucRefs τ sig) (Gen.V3 m (outs m) c) ∗ rest c)
  post c := iprop(StableHlo.held (c : Thread nD τ) (Pipeline.ucRefs τ sig) (Gen.V4 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (into1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (into1 m c) (into1_arr m c)
    rw [Pipeline.unscopedBufs_held c (Gen.V3 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (entry1 m) c).Φ 0 from rfl]
    refine BIBase.Entails.trans ?_ (hin1 (entry1 m) c)
    unfold Pipeline.ΦA
    iintro ⟨Hp, -, Hr⟩
    isplitl [Hr]; · iexact Hr
    iexact Hp
  hout c := by
    rw [Pipeline.ownSems0_none, show (pdats m 1 c).Φ (Fin.last _) = (dat1 (entry1 m) c).Φ (Fin.last cfg1.N) from rfl]
    refine BIBase.Entails.trans (hout1 (entry1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (into1 m c) (fun b => Gen.V4 m (outs m) c b) ((pdats m 1 c).arrAt · cfg1.N) (exit1_arr m c) (exit1_rest m c)
    rw [Pipeline.unscopedBufs_held c (Gen.V4 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch

The launch element is the pipeline library's own at every staging cell, and no core gets a ghost resource beside it.
What the launch deals a core, less its buffers, makes the rest: the generator register at its launch state, the dues at nothing. -/

/-- The launch element yields the pipeline library's, and nothing per core. -/
theorem fund :
    (ownU (initOf (Pipeline.cells cfgs cellOf_inj) (Pipeline.launchToks cfgs cellOf_inj)) : sProp 𝕄)
      ⊢ |={Set.univ}=> iprop(BI.own ((emb₁ : Emb (UR sig nD τ) 𝕄) (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- On every core at once, what the launch deals beside the buffers makes the rest. -/
theorem rest_launch (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noPairs lvl0)
      ⊢ (|={Set.univ}=> bigSep Finset.univ (fun c : Dev nD => rest (F := F) c) : sProp 𝕄) := by
  refine Pipeline.initEach noPairs lvl0 fun c => ?_
  iintro ⟨⟨-, HO, -, Hp, -⟩, -⟩
  imodintro
  isplitl [Hp]; · iexists _; iexact Hp
  iexists ∅; iexact HO

/-- The rest ends owing nothing. -/
theorem rest_owes (c : Dev nD) :
    rest (F := F) c ⊢ (iprop(∃ W, owes (c : Thread nD τ) (0 : CellTallies nD τ sig Unit) W) : sProp 𝕄) := by
  iintro ⟨-, HO⟩; iexact HO

set_option backward.isDefEq.respectTransparency.types false in
/-- THE FRAME: every weakly fair execution of @main terminates, nothing faulting, the arguments unchanged. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  -- the generated conditional frame, at the two records; each record's thread states are the generated ones on the nose
  Gen.frame_cond m (emb₁ : Emb (UR sig nD τ) 𝕄) () noVar noPairs lvl0 (fun _ _ => rfl) ρ (outs m) (pdats m)
    (O₀ := 0) (G := fun _ => iprop(emp))
    (u₀ := initOf (Pipeline.cells cfgs cellOf_inj) (Pipeline.launchToks cfgs cellOf_inj)) (hu₀ := fund)
    (E := fun _ c => rest c) (hE0 := rest_launch ρ) (hE2 := rest_owes)
    (R0 := reg0 m) (hpre0 := fun _ => .rfl) (hpost0 := fun _ => .rfl)
    (R1 := reg1 m) (hpre1 := fun _ => .rfl) (hpost1 := fun _ => .rfl)

end Cert.KernelIdeal.Hand

end
-- ==== Proof.IdealRun.lean ====
/-
  The idealized kernel's run with its result named: the same launch as the frame's, read at one more buffer.
  At the end every unscoped buffer is held at the last valuation; the result buffer `main_v5` is the broadcast
  of layer 1's output array, and the six arguments are as launched.
-/
import proofs.«142951_g14259291422968_cont_week2b_117_5_alg».proof.Proof.IdealRecords

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Every weakly fair execution of @main terminates, nothing faulting, with the result buffer at the last valuation's
    contents and the arguments unchanged. -/
theorem run_all (ρ : Dev nD → PrngReg) :
    θ_run defs (onTc (τ := τ) (main (F := F))) ⟨m, fun _ => 0, ρ⟩ (fun r => ∀ c : Dev nD,
      r.2.mem ((c.tc : Thread nD τ).loc main_v5) = Gen.V5 m (outs m) c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  -- the launch of the generated conditional frame over the same segments, the last thread state read at one more buffer
  refine Pipeline.θ_run_regions_kit_dev (pcfgs (F := F)) Gen.adm (pdats m) () cellOf_inj (emb₁ : Emb (UR sig nD τ) 𝕄) defs₀ noVar noPairs lvl0 m ρ main
    (Gen.segs m (outs m) noVar noPairs lvl0 (fun _ c => rest c) () (pdats m) (reg0 m) (reg1 m))
    (fun c Q => by
      rewrite [main_chain c, Pipeline.Seg.run_eq_chain,
        show (Gen.segs m (outs m) noVar noPairs lvl0 (fun _ c => rest c) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    0 (fun _ _ => rfl) (fun _ => iprop(emp))
    (initOf (Pipeline.cells cfgs cellOf_inj) (Pipeline.launchToks cfgs cellOf_inj)) fund
    (T₀ := fun c => iprop(StableHlo.held (c : Thread nD τ) (Pipeline.ucRefs τ sig) (Gen.V0 m c) ∗ rest c))
    (Tₙ := fun c => StableHlo.held (c : Thread nD τ) (Pipeline.ucRefs τ sig) (Gen.V5 m (outs m) c))
    (hch := fun c => ⟨.rfl, .rfl, .rfl, .rfl, .rfl, sep_mono .rfl (rest_owes c)⟩)
    (hinit := ?_)
    (QY := fun c s => s.mem ((c.tc : Thread nD τ).loc main_v5) = Gen.V5 m (outs m) c main_v5
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h => h)
  · -- the launch: the unscoped buffers are held at the launch valuation; what else a core is dealt makes the rest
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (rest_launch (F := F) ρ) $$ [Hr Hla] with HE
    · isplitl [Hr]; · iexact Hr
      iexact Hla
    imodintro
    -- a conjunction of two families over the cores is the family of the conjunctions
    rw [bigSep_sep' Finset.univ (fun c : Dev nD => StableHlo.held (c : Thread nD τ) (Pipeline.ucRefs τ sig) (Gen.V0 m c)) (fun c : Dev nD => rest (F := F) c)]
    isplitl [Hh]; · iexact Hh
    iexact HE
  · -- the end: the result buffer and each argument's buffer read off the last valuation
    unfold StableHlo.held
    iintro ⟨Hh, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨h (Proc.devRef .tc main_v5) (Finset.mem_filter.mpr ⟨StableHlo.devRef_mem_tcRefs main_v5, by decide⟩),
        (h (Proc.devRef .tc main_arg0) (Finset.mem_filter.mpr ⟨StableHlo.devRef_mem_tcRefs main_arg0, by decide⟩)).trans (Gen.V5_main_arg0 m (outs m) c),
        (h (Proc.devRef .tc main_arg1) (Finset.mem_filter.mpr ⟨StableHlo.devRef_mem_tcRefs main_arg1, by decide⟩)).trans (Gen.V5_main_arg1 m (outs m) c),
        (h (Proc.devRef .tc main_arg2) (Finset.mem_filter.mpr ⟨StableHlo.devRef_mem_tcRefs main_arg2, by decide⟩)).trans (Gen.V5_main_arg2 m (outs m) c),
        (h (Proc.devRef .tc main_arg3) (Finset.mem_filter.mpr ⟨StableHlo.devRef_mem_tcRefs main_arg3, by decide⟩)).trans (Gen.V5_main_arg3 m (outs m) c),
        (h (Proc.devRef .tc main_arg4) (Finset.mem_filter.mpr ⟨StableHlo.devRef_mem_tcRefs main_arg4, by decide⟩)).trans (Gen.V5_main_arg4 m (outs m) c),
        (h (Proc.devRef .tc main_arg5) (Finset.mem_filter.mpr ⟨StableHlo.devRef_mem_tcRefs main_arg5, by decide⟩)).trans (Gen.V5_main_arg5 m (outs m) c)⟩
    · iexact HSI

end Cert.KernelIdeal.Hand

end
-- ==== Proof.Spec.lean ====
/-
  The function both programs compute, over the extended reals.

  A graph-convolution layer on 10000 nodes with 128 channels: node k's features are the affine map
  x·W + b of its input row, and node p's output in channel q is the adjacency-weighted sum of all
  nodes' features, clipped below at zero,
      layer adj x W b (p, q) = max (∑ k, adj (p, k) · (∑ j, x (k, j) · W (j, q) + b q)) 0.
  The network is two such layers over one adjacency matrix. Nothing here mentions a program.
-/
import Idealize.ShloMosaic.PureOps.Ideal
import Idealize.ShloMosaic.Lib.ValueIdx

noncomputable section

namespace Cert.Gcn

open Idealize.ShloMosaic Idealize.ShloMosaic.ValueIdx

/-- nodes × nodes, nodes × channels, channels × channels. -/
abbrev SNN : Shape := ⟨2, ![10000, 10000]⟩
abbrev SNC : Shape := ⟨2, ![10000, 128]⟩
abbrev SCC : Shape := ⟨2, ![128, 128]⟩

/-- Node `k`'s features in channel `q`: row `k` of `x` through the affine map `W`, `b`. -/
def feat (x : SNC.Idx → EReal) (W : SCC.Idx → EReal) (b : Fin 128 → EReal) (k : Fin 10000) (q : Fin 128) : EReal :=
  (∑ j : Fin 128, x (ix2 k j) * W (ix2 j q)) + b q

/-- One layer at node `p`, channel `q`: the adjacency row against every node's features, clipped at zero. -/
def layerAt (adj : SNN.Idx → EReal) (x : SNC.Idx → EReal) (W : SCC.Idx → EReal) (b : Fin 128 → EReal)
    (p : Fin 10000) (q : Fin 128) : EReal :=
  max (∑ k : Fin 10000, adj (ix2 p k) * feat x W b k q) 0

/-- One layer as an array over nodes × channels. -/
def layer (adj : SNN.Idx → EReal) (x : SNC.Idx → EReal) (W : SCC.Idx → EReal) (b : Fin 128 → EReal) :
    SNC.Idx → EReal :=
  fun i => layerAt adj x W b (i 0) (i 1)

theorem layer_apply (adj : SNN.Idx → EReal) (x : SNC.Idx → EReal) (W : SCC.Idx → EReal) (b : Fin 128 → EReal)
    (p : Fin 10000) (q : Fin 128) : layer adj x W b (ix2 p q) = layerAt adj x W b p q := rfl

/-- The two-layer network. -/
def net (adj : SNN.Idx → EReal) (x : SNC.Idx → EReal) (W1 : SCC.Idx → EReal) (b1 : Fin 128 → EReal)
    (W2 : SCC.Idx → EReal) (b2 : Fin 128 → EReal) : SNC.Idx → EReal :=
  layer adj (layer adj x W1 b1) W2 b2

/-- The network's result as the programs return it, with a leading axis of extent one. -/
abbrev S1NC : Shape := ⟨3, ![1, 10000, 128]⟩
def result (adj : SNN.Idx → EReal) (x : SNC.Idx → EReal) (W1 : SCC.Idx → EReal) (b1 : Fin 128 → EReal)
    (W2 : SCC.Idx → EReal) (b2 : Fin 128 → EReal) : S1NC.Idx → EReal :=
  fun i => net adj x W1 b1 W2 b2 (ix2 (i 1) (i 2))

end Cert.Gcn

end
-- ==== Proof.IdealValue0.lean ====
/-
  The value of layer 0 of the idealized kernel: what the output array holds after the region.

  Over the extended reals the narrowing to the short float format is the identity and a matrix product into a
  zero accumulator is a plain sum, so the two payloads of the body read, at an index,
      features (k, q) = ∑ j, x (k, j) · W (j, q) + b (0, q)
      output block (p, q) = max (∑ k, adjacency block (p, k) · features (k, q)) 0.
  Point t's adjacency block is rows 400t … 400t+399 of the adjacency matrix, and the other three windows' blocks
  are their whole arrays; so what point t writes back is rows 400t … 400t+399 of ONE array, the layer of the
  specification applied to the four arrays the region was entered with. Row n lies in the block of point n / 400
  and every point writes its block back, so the 25 blocks tile the output and the array ends holding that layer.
-/
import proofs.«142951_g14259291422968_cont_week2b_117_5_alg».proof.Proof.IdealBody0
import proofs.«142951_g14259291422968_cont_week2b_117_5_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The two matrix products' operand indices

For each product: at output index `i` and contraction index `r`, the left operand is read at (row of `i`, `r`) and
the right operand at (`r`, column of `i`). One statement per operand and axis. -/

theorem pay0_2_lhs_row (i : S400x128.Idx) (r : dot_S400x10000_S10000x128_S400x128_1_0_0_1_n_n.contr.Idx) :
    (dot_S400x10000_S10000x128_S400x128_1_0_0_1_n_n.lhsIdx i r 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem pay0_2_lhs_col (i : S400x128.Idx) (r : dot_S400x10000_S10000x128_S400x128_1_0_0_1_n_n.contr.Idx) :
    (dot_S400x10000_S10000x128_S400x128_1_0_0_1_n_n.lhsIdx i r 1).val = (r ⟨0, by decide⟩).val :=
  dot_S400x10000_S10000x128_S400x128_1_0_0_1_n_n.lhsIdx_val_of_single rfl i r
theorem pay0_2_rhs_row (i : S400x128.Idx) (r : dot_S400x10000_S10000x128_S400x128_1_0_0_1_n_n.contr.Idx) :
    (dot_S400x10000_S10000x128_S400x128_1_0_0_1_n_n.rhsIdx i r 0).val = (r ⟨0, by decide⟩).val :=
  dot_S400x10000_S10000x128_S400x128_1_0_0_1_n_n.rhsIdx_val_of_single rfl i r
theorem pay0_2_rhs_col (i : S400x128.Idx) (r : dot_S400x10000_S10000x128_S400x128_1_0_0_1_n_n.contr.Idx) :
    (dot_S400x10000_S10000x128_S400x128_1_0_0_1_n_n.rhsIdx i r 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The adjacency product at an index: the accumulator is the zero splat and the narrowing of the left operand
    is the identity on extended reals, so the entry is the plain sum over the contracted axis, clipped at zero. -/
theorem pay0_2_apply (a : Vec Ideal S400x10000 .f32) (s : Vec Ideal S10000x128 .bf16) (p : Fin 400) (q : Fin 128) :
    k0_pay2 a s (ix2 p q) = max (∑ k : Fin 10000, a (ix2 p k) * s (ix2 k q)) 0 := by
  unfold k0_pay2
  show max (FloatOps.matmul dot_S400x10000_S10000x128_S400x128_1_0_0_1_n_n none (truncf .bf16 a bitsLt_bf16_f32) s (constant S400x128 .f32 0x00000000#32) (ix2 p q)) (Ideal.ofBits .f32 0x00000000#32) = _
  rw [Ideal.matmul_constant_zero_apply, Ideal.ofBits_zero_f32, ← Equiv.sum_comp (ValueIdx.contrEquiv1 dot_S400x10000_S10000x128_S400x128_1_0_0_1_n_n 10000 rfl rfl).symm]
  refine congrArg (fun z => max z 0) (Finset.sum_congr rfl fun k _ => ?_)
  have hk := ValueIdx.contrEquiv1_symm_val dot_S400x10000_S10000x128_S400x128_1_0_0_1_n_n 10000 rfl rfl k
  have el : dot_S400x10000_S10000x128_S400x128_1_0_0_1_n_n.lhsIdx (ix2 p q) ((ValueIdx.contrEquiv1 dot_S400x10000_S10000x128_S400x128_1_0_0_1_n_n 10000 rfl rfl).symm k) = ix2 p k := funext fun d => Fin.ext (by
    match d with
    | ⟨0, _⟩ => exact pay0_2_lhs_row _ _
    | ⟨1, _⟩ => exact (pay0_2_lhs_col _ _).trans hk)
  have er : dot_S400x10000_S10000x128_S400x128_1_0_0_1_n_n.rhsIdx (ix2 p q) ((ValueIdx.contrEquiv1 dot_S400x10000_S10000x128_S400x128_1_0_0_1_n_n 10000 rfl rfl).symm k) = ix2 k q := funext fun d => Fin.ext (by
    match d with
    | ⟨0, _⟩ => exact (pay0_2_rhs_row _ _).trans hk
    | ⟨1, _⟩ => exact pay0_2_rhs_col _ _)
  rw [el, er]
  rfl

theorem pay0_1_lhs_row (i : S10000x128.Idx) (r : dot_S10000x128_S128x128_S10000x128_1_0_0_1_n_n.contr.Idx) :
    (dot_S10000x128_S128x128_S10000x128_1_0_0_1_n_n.lhsIdx i r 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem pay0_1_lhs_col (i : S10000x128.Idx) (r : dot_S10000x128_S128x128_S10000x128_1_0_0_1_n_n.contr.Idx) :
    (dot_S10000x128_S128x128_S10000x128_1_0_0_1_n_n.lhsIdx i r 1).val = (r ⟨0, by decide⟩).val :=
  dot_S10000x128_S128x128_S10000x128_1_0_0_1_n_n.lhsIdx_val_of_single rfl i r
theorem pay0_1_rhs_row (i : S10000x128.Idx) (r : dot_S10000x128_S128x128_S10000x128_1_0_0_1_n_n.contr.Idx) :
    (dot_S10000x128_S128x128_S10000x128_1_0_0_1_n_n.rhsIdx i r 0).val = (r ⟨0, by decide⟩).val :=
  dot_S10000x128_S128x128_S10000x128_1_0_0_1_n_n.rhsIdx_val_of_single rfl i r
theorem pay0_1_rhs_col (i : S10000x128.Idx) (r : dot_S10000x128_S128x128_S10000x128_1_0_0_1_n_n.contr.Idx) :
    (dot_S10000x128_S128x128_S10000x128_1_0_0_1_n_n.rhsIdx i r 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The features at an index: the two same-shape casts and the narrowing are identities, the product accumulates
    into the zero splat, and the bias row is repeated down the rows; so the entry is row `k` of the input against
    column `q` of the weights, plus the bias at `q`. -/
theorem pay0_1_apply (x : Vec Ideal S10000x128 .f32) (wt : Vec Ideal S128x128 .f32) (b : Vec Ideal S1x128 .f32) (k : Fin 10000) (q : Fin 128) :
    k0_pay1 x wt b (ix2 k q) = (∑ j : Fin 128, x (ix2 k j) * wt (ix2 j q)) + b (ix2 0 q) := by
  unfold k0_pay1
  simp only [shapeCast_self]
  show FloatOps.matmul (F := Ideal) dot_S10000x128_S128x128_S10000x128_1_0_0_1_n_n none x wt (constant (F := Ideal) S10000x128 .f32 0x00000000#32) (ix2 k q) + broadcastTo S10000x128 b broadcasts_S1x128_S10000x128 (ix2 k q) = _
  rw [Ideal.matmul_constant_zero_apply, broadcastTo_1b_ab_apply b broadcasts_S1x128_S10000x128 k q, ← Equiv.sum_comp (ValueIdx.contrEquiv1 dot_S10000x128_S128x128_S10000x128_1_0_0_1_n_n 128 rfl rfl).symm]
  refine congrArg (fun z => z + b (ix2 0 q)) (Finset.sum_congr rfl fun j _ => ?_)
  have hj := ValueIdx.contrEquiv1_symm_val dot_S10000x128_S128x128_S10000x128_1_0_0_1_n_n 128 rfl rfl j
  have el : dot_S10000x128_S128x128_S10000x128_1_0_0_1_n_n.lhsIdx (ix2 k q) ((ValueIdx.contrEquiv1 dot_S10000x128_S128x128_S10000x128_1_0_0_1_n_n 128 rfl rfl).symm j) = ix2 k j := funext fun d => Fin.ext (by
    match d with
    | ⟨0, _⟩ => exact pay0_1_lhs_row _ _
    | ⟨1, _⟩ => exact (pay0_1_lhs_col _ _).trans hj)
  have er : dot_S10000x128_S128x128_S10000x128_1_0_0_1_n_n.rhsIdx (ix2 k q) ((ValueIdx.contrEquiv1 dot_S10000x128_S128x128_S10000x128_1_0_0_1_n_n 128 rfl rfl).symm j) = ix2 j q := funext fun d => Fin.ext (by
    match d with
    | ⟨0, _⟩ => exact (pay0_1_rhs_row _ _).trans hj
    | ⟨1, _⟩ => exact pay0_1_rhs_col _ _)
  rw [el, er]

/-! ## Blocks, the write-back, the cover -/

section
variable (V : (c : Dev nD) → (b : Ref sig .tc) → Buf (Elt Ideal) ((c : Thread nD τ).loc b))

/-- The four arrays the region reads, named at their literal shapes: the adjacency matrix (window 3), the input
    features (window 0), the weights (window 1) and the bias row (window 2). -/
abbrev arr0_adj (c : Dev nD) : Vec Ideal S10000x10000 .f32 := V c (Pipeline.arrRef spec0 3)
abbrev arr0_x (c : Dev nD) : Vec Ideal S10000x128 .f32 := V c (Pipeline.arrRef spec0 0)
abbrev arr0_w (c : Dev nD) : Vec Ideal S128x128 .f32 := V c (Pipeline.arrRef spec0 1)
abbrev arr0_b (c : Dev nD) : Vec Ideal S1x128 .f32 := V c (Pipeline.arrRef spec0 2)

/-- The blocks the body is passed, at their literal shapes: the adjacency rows of point `t`, and the three whole
    arrays as the first point finds them. -/
abbrev blk0_adj (c : Dev nD) (t : Fin cfg0.N) : Vec Ideal S400x10000 .f32 := iblk0 V c 3 t
abbrev blk0_x (c : Dev nD) : Vec Ideal S10000x128 .f32 := iblk0 V c 0 first0
abbrev blk0_w (c : Dev nD) : Vec Ideal S128x128 .f32 := iblk0 V c 1 first0
abbrev blk0_b (c : Dev nD) : Vec Ideal S1x128 .f32 := iblk0 V c 2 first0

/-- The printed index maps, decided once over the grid: windows 0, 1, 2 stay at block (0, 0); the adjacency and
    the output windows are at block (t, 0). -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of point `t`'s adjacency block is row `400 t + p` of the adjacency matrix. -/
theorem blk0_adj_read (c : Dev nD) (t : Fin cfg0.N) (p : Fin 400) (k : Fin 10000) (r : Fin 10000)
    (hr : r.val = 400 * t.val + p.val) : blk0_adj V c t (ix2 p k) = arr0_adj V c (ix2 r k) := by
  obtain ⟨-, -, -, -, -, -, ea, eb, -, -⟩ := idx_facts0 t
  show V c (Pipeline.arrRef spec0 3) (((cfg0.win 3).blk t).view.emb (ix2 p k)) = V c (Pipeline.arrRef spec0 3) (ix2 r k)
  refine congrArg _ (funext fun d => Fin.ext ?_)
  match d with
  | ⟨0, _⟩ => show win0_3.index t (0 : Fin 2) * 400 + 1 * p.val = r.val; omega
  | ⟨1, _⟩ => show win0_3.index t (1 : Fin 2) * 10000 + 1 * k.val = k.val; omega

/-- The input features' block is the whole array. -/
theorem blk0_x_read (c : Dev nD) : blk0_x V c = arr0_x V c := by
  obtain ⟨ea, eb, -, -, -, -, -, -, -, -⟩ := idx_facts0 first0
  funext j
  show V c (Pipeline.arrRef spec0 0) (((cfg0.win 0).blk first0).view.emb j) = V c (Pipeline.arrRef spec0 0) j
  refine congrArg _ (funext fun d => Fin.ext ?_)
  match d with
  | ⟨0, _⟩ => show win0_0.index first0 (0 : Fin 2) * 10000 + 1 * (j 0).val = (j 0).val; omega
  | ⟨1, _⟩ => show win0_0.index first0 (1 : Fin 2) * 128 + 1 * (j 1).val = (j 1).val; omega

/-- The weights' block is the whole array. -/
theorem blk0_w_read (c : Dev nD) : blk0_w V c = arr0_w V c := by
  obtain ⟨-, -, ea, eb, -, -, -, -, -, -⟩ := idx_facts0 first0
  funext j
  show V c (Pipeline.arrRef spec0 1) (((cfg0.win 1).blk first0).view.emb j) = V c (Pipeline.arrRef spec0 1) j
  refine congrArg _ (funext fun d => Fin.ext ?_)
  match d with
  | ⟨0, _⟩ => show win0_1.index first0 (0 : Fin 2) * 128 + 1 * (j 0).val = (j 0).val; omega
  | ⟨1, _⟩ => show win0_1.index first0 (1 : Fin 2) * 128 + 1 * (j 1).val = (j 1).val; omega

/-- The bias row's block is the whole array. -/
theorem blk0_b_read (c : Dev nD) : blk0_b V c = arr0_b V c := by
  obtain ⟨-, -, -, -, ea, eb, -, -, -, -⟩ := idx_facts0 first0
  funext j
  show V c (Pipeline.arrRef spec0 2) (((cfg0.win 2).blk first0).view.emb j) = V c (Pipeline.arrRef spec0 2) j
  refine congrArg _ (funext fun d => Fin.ext ?_)
  match d with
  | ⟨0, _⟩ => show win0_2.index first0 (0 : Fin 2) * 1 + 1 * (j 0).val = (j 0).val; omega
  | ⟨1, _⟩ => show win0_2.index first0 (1 : Fin 2) * 128 + 1 * (j 1).val = (j 1).val; omega

/-- What the scratch holds from the first point on, at an index: node `k`'s features in channel `q`. -/
theorem fts0_apply (c : Dev nD) (k : Fin 10000) (q : Fin 128) :
    fts0 V c (ix2 k q) = Cert.Gcn.feat (arr0_x V c) (arr0_w V c) (fun n => arr0_b V c (ix2 0 n)) k q := by
  unfold fts0
  refine (pay0_1_apply (blk0_x V c) (blk0_w V c) (blk0_b V c) k q).trans ?_
  rw [blk0_x_read, blk0_w_read, blk0_b_read]
  rfl

/-- WHAT POINT `t` WRITES BACK is its block of the layer's array: row `p` of the block is node `400 t + p`, whose
    adjacency row is row `p` of the point's adjacency block, against the features the scratch holds. -/
theorem flushed0_eq (c : Dev nD) (t : Fin cfg0.N) :
    (dat0 V c).flushed 4 t = ((cfg0.win 4).blk t).view.read (Elt Ideal)
      (Cert.Gcn.layer (arr0_adj V c) (arr0_x V c) (arr0_w V c) (fun n => arr0_b V c (ix2 0 n))) := by
  have hN : cfg0.N = 25 := N_0
  have ht := t.isLt
  obtain ⟨-, -, -, -, -, -, -, -, ea, eb⟩ := idx_facts0 t
  show (cfg0.win 4).cut (grid0.coords t) ((dat0 V c).after 4 t) = _
  rw [after0_4]
  funext j
  obtain ⟨p, q, rfl⟩ : ∃ (p : Fin 400) (q : Fin 128), j = ix2 p q := ⟨j 0, j 1, eq_ix2 j⟩
  obtain ⟨r, hr⟩ : ∃ r : Fin 10000, r.val = 400 * t.val + p.val := ⟨⟨400 * t.val + p.val, by have := p.isLt; omega⟩, rfl⟩
  have hemb : ((cfg0.win 4).blk t).view.emb (ix2 p q) = ix2 r q := funext fun d => Fin.ext (by
    match d with
    | ⟨0, _⟩ => show win0_4.index t (0 : Fin 2) * 400 + 1 * p.val = r.val; omega
    | ⟨1, _⟩ => show win0_4.index t (1 : Fin 2) * 128 + 1 * q.val = q.val; omega)
  show k0_pay2 (blk0_adj V c t) (fts0 V c) (ix2 p q)
    = Cert.Gcn.layer (arr0_adj V c) (arr0_x V c) (arr0_w V c) (fun n => arr0_b V c (ix2 0 n)) (((cfg0.win 4).blk t).view.emb (ix2 p q))
  rw [hemb, Cert.Gcn.layer_apply]
  refine (pay0_2_apply (blk0_adj V c t) (fts0 V c) p q).trans ?_
  unfold Cert.Gcn.layerAt
  refine congrArg (fun z => max z 0) (Finset.sum_congr rfl fun k _ => ?_)
  rw [blk0_adj_read V c t p k r hr, fts0_apply]

/-- An index of the output array is in point `t`'s block iff each coordinate is in the block's range on its axis. -/
theorem mem_blk0 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole (Pipeline.arrRef spec0 4)).slice (win0_4.rect t)).set ↔ _
  rw [View.set_slice_whole, Rect.mem_set_unit]
  exact Iff.rfl

/-- THE COVER: row `n` of the output is in the block of point `n / 400`, and every point writes its block back. -/
theorem cover0 (i : S10000x128.Idx) : ∃ t : Fin cfg0.N, (cfg0.win 4).flush t = true ∧ i ∈ ((cfg0.win 4).blk t).view.set := by
  have hN : cfg0.N = 25 := N_0
  have hrow : (i 0).val < 10000 := (i 0).isLt
  have hcol : (i 1).val < 128 := (i 1).isLt
  obtain ⟨t, ht⟩ : ∃ t : Fin cfg0.N, t.val = (i 0).val / 400 := ⟨⟨(i 0).val / 400, by omega⟩, rfl⟩
  obtain ⟨-, -, -, -, -, -, -, -, ea, eb⟩ := idx_facts0 t
  refine ⟨t, flush0_4 t, ?_⟩
  rw [mem_blk0]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- THE OUTPUT ARRAY after the 25 write-backs is the layer of the four arrays the region was entered with. -/
theorem arr0_final (c : Dev nD) :
    (dat0 V c).arrAt 4 cfg0.N = Cert.Gcn.layer (V c (Pipeline.arrRef spec0 3)) (V c (Pipeline.arrRef spec0 0)) (V c (Pipeline.arrRef spec0 1)) (fun q => V c (Pipeline.arrRef spec0 2) (ValueIdx.ix2 0 q)) :=
  (dat0 V c).arrAt_eq_of_cover 4 _ (fun t _ => flushed0_eq V c t) (fun i => cover0 i)

end

end Cert.KernelIdeal.Hand

end
-- ==== Proof.IdealValue1.lean ====
/-
  The value of layer 1 of the idealized kernel: what the output array holds after the region.

  Over the extended reals the narrowing to the short float format is the identity and a matrix product into a
  zero accumulator is a plain sum, so the two payloads of the body read, at an index,
      features (k, q) = ∑ j, x (k, j) · W (j, q) + b (0, q)
      output block (p, q) = max (∑ k, adjacency block (p, k) · features (k, q)) 0.
  Point t's adjacency block is rows 400t … 400t+399 of the adjacency matrix, and the other three windows' blocks
  are their whole arrays; so what point t writes back is rows 400t … 400t+399 of ONE array, the layer of the
  specification applied to the four arrays the region was entered with. Row n lies in the block of point n / 400
  and every point writes its block back, so the 25 blocks tile the output and the array ends holding that layer.
-/
import proofs.«142951_g14259291422968_cont_week2b_117_5_alg».proof.Proof.IdealBody1
import proofs.«142951_g14259291422968_cont_week2b_117_5_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The two matrix products' operand indices

For each product: at output index `i` and contraction index `r`, the left operand is read at (row of `i`, `r`) and
the right operand at (`r`, column of `i`). One statement per operand and axis. -/

theorem pay1_2_lhs_row (i : S400x128.Idx) (r : dot_S400x10000_S10000x128_S400x128_1_0_0_1_n_n.contr.Idx) :
    (dot_S400x10000_S10000x128_S400x128_1_0_0_1_n_n.lhsIdx i r 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem pay1_2_lhs_col (i : S400x128.Idx) (r : dot_S400x10000_S10000x128_S400x128_1_0_0_1_n_n.contr.Idx) :
    (dot_S400x10000_S10000x128_S400x128_1_0_0_1_n_n.lhsIdx i r 1).val = (r ⟨0, by decide⟩).val :=
  dot_S400x10000_S10000x128_S400x128_1_0_0_1_n_n.lhsIdx_val_of_single rfl i r
theorem pay1_2_rhs_row (i : S400x128.Idx) (r : dot_S400x10000_S10000x128_S400x128_1_0_0_1_n_n.contr.Idx) :
    (dot_S400x10000_S10000x128_S400x128_1_0_0_1_n_n.rhsIdx i r 0).val = (r ⟨0, by decide⟩).val :=
  dot_S400x10000_S10000x128_S400x128_1_0_0_1_n_n.rhsIdx_val_of_single rfl i r
theorem pay1_2_rhs_col (i : S400x128.Idx) (r : dot_S400x10000_S10000x128_S400x128_1_0_0_1_n_n.contr.Idx) :
    (dot_S400x10000_S10000x128_S400x128_1_0_0_1_n_n.rhsIdx i r 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The adjacency product at an index: the accumulator is the zero splat and the narrowing of the left operand
    is the identity on extended reals, so the entry is the plain sum over the contracted axis, clipped at zero. -/
theorem pay1_2_apply (a : Vec Ideal S400x10000 .f32) (s : Vec Ideal S10000x128 .bf16) (p : Fin 400) (q : Fin 128) :
    k1_pay2 a s (ix2 p q) = max (∑ k : Fin 10000, a (ix2 p k) * s (ix2 k q)) 0 := by
  unfold k1_pay2
  show max (FloatOps.matmul dot_S400x10000_S10000x128_S400x128_1_0_0_1_n_n none (truncf .bf16 a bitsLt_bf16_f32) s (constant S400x128 .f32 0x00000000#32) (ix2 p q)) (Ideal.ofBits .f32 0x00000000#32) = _
  rw [Ideal.matmul_constant_zero_apply, Ideal.ofBits_zero_f32, ← Equiv.sum_comp (ValueIdx.contrEquiv1 dot_S400x10000_S10000x128_S400x128_1_0_0_1_n_n 10000 rfl rfl).symm]
  refine congrArg (fun z => max z 0) (Finset.sum_congr rfl fun k _ => ?_)
  have hk := ValueIdx.contrEquiv1_symm_val dot_S400x10000_S10000x128_S400x128_1_0_0_1_n_n 10000 rfl rfl k
  have el : dot_S400x10000_S10000x128_S400x128_1_0_0_1_n_n.lhsIdx (ix2 p q) ((ValueIdx.contrEquiv1 dot_S400x10000_S10000x128_S400x128_1_0_0_1_n_n 10000 rfl rfl).symm k) = ix2 p k := funext fun d => Fin.ext (by
    match d with
    | ⟨0, _⟩ => exact pay1_2_lhs_row _ _
    | ⟨1, _⟩ => exact (pay1_2_lhs_col _ _).trans hk)
  have er : dot_S400x10000_S10000x128_S400x128_1_0_0_1_n_n.rhsIdx (ix2 p q) ((ValueIdx.contrEquiv1 dot_S400x10000_S10000x128_S400x128_1_0_0_1_n_n 10000 rfl rfl).symm k) = ix2 k q := funext fun d => Fin.ext (by
    match d with
    | ⟨0, _⟩ => exact (pay1_2_rhs_row _ _).trans hk
    | ⟨1, _⟩ => exact pay1_2_rhs_col _ _)
  rw [el, er]
  rfl

theorem pay1_1_lhs_row (i : S10000x128.Idx) (r : dot_S10000x128_S128x128_S10000x128_1_0_0_1_n_n.contr.Idx) :
    (dot_S10000x128_S128x128_S10000x128_1_0_0_1_n_n.lhsIdx i r 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem pay1_1_lhs_col (i : S10000x128.Idx) (r : dot_S10000x128_S128x128_S10000x128_1_0_0_1_n_n.contr.Idx) :
    (dot_S10000x128_S128x128_S10000x128_1_0_0_1_n_n.lhsIdx i r 1).val = (r ⟨0, by decide⟩).val :=
  dot_S10000x128_S128x128_S10000x128_1_0_0_1_n_n.lhsIdx_val_of_single rfl i r
theorem pay1_1_rhs_row (i : S10000x128.Idx) (r : dot_S10000x128_S128x128_S10000x128_1_0_0_1_n_n.contr.Idx) :
    (dot_S10000x128_S128x128_S10000x128_1_0_0_1_n_n.rhsIdx i r 0).val = (r ⟨0, by decide⟩).val :=
  dot_S10000x128_S128x128_S10000x128_1_0_0_1_n_n.rhsIdx_val_of_single rfl i r
theorem pay1_1_rhs_col (i : S10000x128.Idx) (r : dot_S10000x128_S128x128_S10000x128_1_0_0_1_n_n.contr.Idx) :
    (dot_S10000x128_S128x128_S10000x128_1_0_0_1_n_n.rhsIdx i r 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The features at an index: the two same-shape casts and the narrowing are identities, the product accumulates
    into the zero splat, and the bias row is repeated down the rows; so the entry is row `k` of the input against
    column `q` of the weights, plus the bias at `q`. -/
theorem pay1_1_apply (x : Vec Ideal S10000x128 .f32) (wt : Vec Ideal S128x128 .f32) (b : Vec Ideal S1x128 .f32) (k : Fin 10000) (q : Fin 128) :
    k1_pay1 x wt b (ix2 k q) = (∑ j : Fin 128, x (ix2 k j) * wt (ix2 j q)) + b (ix2 0 q) := by
  unfold k1_pay1
  simp only [shapeCast_self]
  show FloatOps.matmul (F := Ideal) dot_S10000x128_S128x128_S10000x128_1_0_0_1_n_n none x wt (constant (F := Ideal) S10000x128 .f32 0x00000000#32) (ix2 k q) + broadcastTo S10000x128 b broadcasts_S1x128_S10000x128 (ix2 k q) = _
  rw [Ideal.matmul_constant_zero_apply, broadcastTo_1b_ab_apply b broadcasts_S1x128_S10000x128 k q, ← Equiv.sum_comp (ValueIdx.contrEquiv1 dot_S10000x128_S128x128_S10000x128_1_0_0_1_n_n 128 rfl rfl).symm]
  refine congrArg (fun z => z + b (ix2 0 q)) (Finset.sum_congr rfl fun j _ => ?_)
  have hj := ValueIdx.contrEquiv1_symm_val dot_S10000x128_S128x128_S10000x128_1_0_0_1_n_n 128 rfl rfl j
  have el : dot_S10000x128_S128x128_S10000x128_1_0_0_1_n_n.lhsIdx (ix2 k q) ((ValueIdx.contrEquiv1 dot_S10000x128_S128x128_S10000x128_1_0_0_1_n_n 128 rfl rfl).symm j) = ix2 k j := funext fun d => Fin.ext (by
    match d with
    | ⟨0, _⟩ => exact pay1_1_lhs_row _ _
    | ⟨1, _⟩ => exact (pay1_1_lhs_col _ _).trans hj)
  have er : dot_S10000x128_S128x128_S10000x128_1_0_0_1_n_n.rhsIdx (ix2 k q) ((ValueIdx.contrEquiv1 dot_S10000x128_S128x128_S10000x128_1_0_0_1_n_n 128 rfl rfl).symm j) = ix2 j q := funext fun d => Fin.ext (by
    match d with
    | ⟨0, _⟩ => exact (pay1_1_rhs_row _ _).trans hj
    | ⟨1, _⟩ => exact pay1_1_rhs_col _ _)
  rw [el, er]

/-! ## Blocks, the write-back, the cover -/

section
variable (V : (c : Dev nD) → (b : Ref sig .tc) → Buf (Elt Ideal) ((c : Thread nD τ).loc b))

/-- The four arrays the region reads, named at their literal shapes: the adjacency matrix (window 3), the input
    features (window 0), the weights (window 1) and the bias row (window 2). -/
abbrev arr1_adj (c : Dev nD) : Vec Ideal S10000x10000 .f32 := V c (Pipeline.arrRef spec1 3)
abbrev arr1_x (c : Dev nD) : Vec Ideal S10000x128 .f32 := V c (Pipeline.arrRef spec1 0)
abbrev arr1_w (c : Dev nD) : Vec Ideal S128x128 .f32 := V c (Pipeline.arrRef spec1 1)
abbrev arr1_b (c : Dev nD) : Vec Ideal S1x128 .f32 := V c (Pipeline.arrRef spec1 2)

/-- The blocks the body is passed, at their literal shapes: the adjacency rows of point `t`, and the three whole
    arrays as the first point finds them. -/
abbrev blk1_adj (c : Dev nD) (t : Fin cfg1.N) : Vec Ideal S400x10000 .f32 := iblk1 V c 3 t
abbrev blk1_x (c : Dev nD) : Vec Ideal S10000x128 .f32 := iblk1 V c 0 first1
abbrev blk1_w (c : Dev nD) : Vec Ideal S128x128 .f32 := iblk1 V c 1 first1
abbrev blk1_b (c : Dev nD) : Vec Ideal S1x128 .f32 := iblk1 V c 2 first1

/-- The printed index maps, decided once over the grid: windows 0, 1, 2 stay at block (0, 0); the adjacency and
    the output windows are at block (t, 0). -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row `p` of point `t`'s adjacency block is row `400 t + p` of the adjacency matrix. -/
theorem blk1_adj_read (c : Dev nD) (t : Fin cfg1.N) (p : Fin 400) (k : Fin 10000) (r : Fin 10000)
    (hr : r.val = 400 * t.val + p.val) : blk1_adj V c t (ix2 p k) = arr1_adj V c (ix2 r k) := by
  obtain ⟨-, -, -, -, -, -, ea, eb, -, -⟩ := idx_facts1 t
  show V c (Pipeline.arrRef spec1 3) (((cfg1.win 3).blk t).view.emb (ix2 p k)) = V c (Pipeline.arrRef spec1 3) (ix2 r k)
  refine congrArg _ (funext fun d => Fin.ext ?_)
  match d with
  | ⟨0, _⟩ => show win1_3.index t (0 : Fin 2) * 400 + 1 * p.val = r.val; omega
  | ⟨1, _⟩ => show win1_3.index t (1 : Fin 2) * 10000 + 1 * k.val = k.val; omega

/-- The input features' block is the whole array. -/
theorem blk1_x_read (c : Dev nD) : blk1_x V c = arr1_x V c := by
  obtain ⟨ea, eb, -, -, -, -, -, -, -, -⟩ := idx_facts1 first1
  funext j
  show V c (Pipeline.arrRef spec1 0) (((cfg1.win 0).blk first1).view.emb j) = V c (Pipeline.arrRef spec1 0) j
  refine congrArg _ (funext fun d => Fin.ext ?_)
  match d with
  | ⟨0, _⟩ => show win1_0.index first1 (0 : Fin 2) * 10000 + 1 * (j 0).val = (j 0).val; omega
  | ⟨1, _⟩ => show win1_0.index first1 (1 : Fin 2) * 128 + 1 * (j 1).val = (j 1).val; omega

/-- The weights' block is the whole array. -/
theorem blk1_w_read (c : Dev nD) : blk1_w V c = arr1_w V c := by
  obtain ⟨-, -, ea, eb, -, -, -, -, -, -⟩ := idx_facts1 first1
  funext j
  show V c (Pipeline.arrRef spec1 1) (((cfg1.win 1).blk first1).view.emb j) = V c (Pipeline.arrRef spec1 1) j
  refine congrArg _ (funext fun d => Fin.ext ?_)
  match d with
  | ⟨0, _⟩ => show win1_1.index first1 (0 : Fin 2) * 128 + 1 * (j 0).val = (j 0).val; omega
  | ⟨1, _⟩ => show win1_1.index first1 (1 : Fin 2) * 128 + 1 * (j 1).val = (j 1).val; omega

/-- The bias row's block is the whole array. -/
theorem blk1_b_read (c : Dev nD) : blk1_b V c = arr1_b V c := by
  obtain ⟨-, -, -, -, ea, eb, -, -, -, -⟩ := idx_facts1 first1
  funext j
  show V c (Pipeline.arrRef spec1 2) (((cfg1.win 2).blk first1).view.emb j) = V c (Pipeline.arrRef spec1 2) j
  refine congrArg _ (funext fun d => Fin.ext ?_)
  match d with
  | ⟨0, _⟩ => show win1_2.index first1 (0 : Fin 2) * 1 + 1 * (j 0).val = (j 0).val; omega
  | ⟨1, _⟩ => show win1_2.index first1 (1 : Fin 2) * 128 + 1 * (j 1).val = (j 1).val; omega

/-- What the scratch holds from the first point on, at an index: node `k`'s features in channel `q`. -/
theorem fts1_apply (c : Dev nD) (k : Fin 10000) (q : Fin 128) :
    fts1 V c (ix2 k q) = Cert.Gcn.feat (arr1_x V c) (arr1_w V c) (fun n => arr1_b V c (ix2 0 n)) k q := by
  unfold fts1
  refine (pay1_1_apply (blk1_x V c) (blk1_w V c) (blk1_b V c) k q).trans ?_
  rw [blk1_x_read, blk1_w_read, blk1_b_read]
  rfl

/-- WHAT POINT `t` WRITES BACK is its block of the layer's array: row `p` of the block is node `400 t + p`, whose
    adjacency row is row `p` of the point's adjacency block, against the features the scratch holds. -/
theorem flushed1_eq (c : Dev nD) (t : Fin cfg1.N) :
    (dat1 V c).flushed 4 t = ((cfg1.win 4).blk t).view.read (Elt Ideal)
      (Cert.Gcn.layer (arr1_adj V c) (arr1_x V c) (arr1_w V c) (fun n => arr1_b V c (ix2 0 n))) := by
  have hN : cfg1.N = 25 := N_1
  have ht := t.isLt
  obtain ⟨-, -, -, -, -, -, -, -, ea, eb⟩ := idx_facts1 t
  show (cfg1.win 4).cut (grid1.coords t) ((dat1 V c).after 4 t) = _
  rw [after1_4]
  funext j
  obtain ⟨p, q, rfl⟩ : ∃ (p : Fin 400) (q : Fin 128), j = ix2 p q := ⟨j 0, j 1, eq_ix2 j⟩
  obtain ⟨r, hr⟩ : ∃ r : Fin 10000, r.val = 400 * t.val + p.val := ⟨⟨400 * t.val + p.val, by have := p.isLt; omega⟩, rfl⟩
  have hemb : ((cfg1.win 4).blk t).view.emb (ix2 p q) = ix2 r q := funext fun d => Fin.ext (by
    match d with
    | ⟨0, _⟩ => show win1_4.index t (0 : Fin 2) * 400 + 1 * p.val = r.val; omega
    | ⟨1, _⟩ => show win1_4.index t (1 : Fin 2) * 128 + 1 * q.val = q.val; omega)
  show k1_pay2 (blk1_adj V c t) (fts1 V c) (ix2 p q)
    = Cert.Gcn.layer (arr1_adj V c) (arr1_x V c) (arr1_w V c) (fun n => arr1_b V c (ix2 0 n)) (((cfg1.win 4).blk t).view.emb (ix2 p q))
  rw [hemb, Cert.Gcn.layer_apply]
  refine (pay1_2_apply (blk1_adj V c t) (fts1 V c) p q).trans ?_
  unfold Cert.Gcn.layerAt
  refine congrArg (fun z => max z 0) (Finset.sum_congr rfl fun k _ => ?_)
  rw [blk1_adj_read V c t p k r hr, fts1_apply]

/-- An index of the output array is in point `t`'s block iff each coordinate is in the block's range on its axis. -/
theorem mem_blk1 (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole (Pipeline.arrRef spec1 4)).slice (win1_4.rect t)).set ↔ _
  rw [View.set_slice_whole, Rect.mem_set_unit]
  exact Iff.rfl

/-- THE COVER: row `n` of the output is in the block of point `n / 400`, and every point writes its block back. -/
theorem cover1 (i : S10000x128.Idx) : ∃ t : Fin cfg1.N, (cfg1.win 4).flush t = true ∧ i ∈ ((cfg1.win 4).blk t).view.set := by
  have hN : cfg1.N = 25 := N_1
  have hrow : (i 0).val < 10000 := (i 0).isLt
  have hcol : (i 1).val < 128 := (i 1).isLt
  obtain ⟨t, ht⟩ : ∃ t : Fin cfg1.N, t.val = (i 0).val / 400 := ⟨⟨(i 0).val / 400, by omega⟩, rfl⟩
  obtain ⟨-, -, -, -, -, -, -, -, ea, eb⟩ := idx_facts1 t
  refine ⟨t, flush1_4 t, ?_⟩
  rw [mem_blk1]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 128 ≤ (i 1).val ∧ (i 1).val < win1_4.index t (1 : Fin 2) * 128 + 128; omega

/-- THE OUTPUT ARRAY after the 25 write-backs is the layer of the four arrays the region was entered with. -/
theorem arr1_final (c : Dev nD) :
    (dat1 V c).arrAt 4 cfg1.N = Cert.Gcn.layer (V c (Pipeline.arrRef spec1 3)) (V c (Pipeline.arrRef spec1 0)) (V c (Pipeline.arrRef spec1 1)) (fun q => V c (Pipeline.arrRef spec1 2) (ValueIdx.ix2 0 q)) :=
  (dat1 V c).arrAt_eq_of_cover 4 _ (fun t _ => flushed1_eq V c t) (fun i => cover1 i)

end

end Cert.KernelIdeal.Hand

end
-- ==== Proof.IdealResult.lean ====
/-
  What the idealized kernel returns, as the specification's function of the launch memory.

  Reading the last valuation backwards: the result buffer is the broadcast of layer 1's output array; that
  array is the layer function of the adjacency matrix, LAYER 0's output array, the second weight matrix and
  the second bias as a 1×128 row; layer 0's output array is the layer function of the adjacency matrix, the
  input with its leading axis of extent one dropped, the first weight matrix and the first bias row. A bias row
  is its vector laid along the second axis, and no item of @main writes an argument, so every array named is
  the launch memory's.
-/
import proofs.«142951_g14259291422968_cont_week2b_117_5_alg».proof.Proof.IdealRecords
import proofs.«142951_g14259291422968_cont_week2b_117_5_alg».proof.Proof.IdealValue0
import proofs.«142951_g14259291422968_cont_week2b_117_5_alg».proof.Proof.IdealValue1
import proofs.«142951_g14259291422968_cont_week2b_117_5_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo Idealize.ShloMosaic.ValueIdx

variable (m : (ℓ : Loc nD τ sig) → Buf (Elt Ideal) ℓ)

/-! ## The host stretches' results -/

/-- A vector laid along the second axis of a 1×128 row reads back entry by entry. -/
theorem row_apply (x : (⟨S128, .f32⟩ : BufTy).Contents (Elt Ideal)) (q : Fin 128) :
    (shapeCast S1x128 x shapeCasts_S128_S1x128 : (⟨S1x128, .f32⟩ : BufTy).Contents (Elt Ideal)) (ix2 0 q) = x (ix1 q) :=
  shapeCast_apply x shapeCasts_S128_S1x128 (ix2 0 q) (ix1 q)
    (by rewrite [Shape.rowMajor_val_two, Shape.rowMajor_val_one]; show q.val = 0 * 128 + q.val; omega)

/-- Before region 0: the input without its leading axis, -/
theorem entry0_v0 (c : Dev nD) :
    entry0 m c main_v0 = shapeCast S10000x128 (m ((c : Thread nD τ).loc main_arg0)) shapeCasts_S1x10000x128_S10000x128 := by
  show StableHlo.after Gen.hostOps0 (Gen.V0 m c) (Proc.devRef .tc main_v0) = _
  after_results; rfl

/-- and the first bias as a row. -/
theorem entry0_v1 (c : Dev nD) :
    entry0 m c main_v1 = shapeCast S1x128 (m ((c : Thread nD τ).loc main_arg3)) shapeCasts_S128_S1x128 := by
  show StableHlo.after Gen.hostOps0 (Gen.V0 m c) (Proc.devRef .tc main_v1) = _
  after_results; rfl

/-- No item before region 0 writes an argument. -/
theorem entry0_arg (c : Dev nD) (r : Ref sig .tc) (h : r ∉ Gen.hostOps0_W) : entry0 m c r = m ((c : Thread nD τ).loc r) :=
  Gen.V1_of m c r h

/-- Before region 1: layer 0's output array is what region 0 left, -/
theorem entry1_v2 (c : Dev nD) : entry1 m c main_v2 = (dat0 (entry0 m) c).arrAt 4 cfg0.N := by
  refine (Gen.V3_of m (outsUpTo0 m) c main_v2 (by decide)).trans ?_
  show Function.update (Gen.V1 m c) (Proc.devRef .tc main_v2) (outsUpTo0 m 2 main_v2 c) (Proc.devRef .tc main_v2) = _
  rw [Function.update_self]
  show Function.update (β := fun r' : Ref sig .tc => Buf (Elt Ideal) ((c : Thread nD τ).loc r')) (fun r' => Gen.V1 m c r') main_v2 (left0 m c) main_v2 = _
  rw [Function.update_self]; rfl

/-- the second bias is a row, -/
theorem entry1_v3 (c : Dev nD) :
    entry1 m c main_v3 = shapeCast S1x128 (m ((c : Thread nD τ).loc main_arg5)) shapeCasts_S128_S1x128 := by
  have e : entry1 m c main_v3 = shapeCast S1x128 (Gen.V2 m (outsUpTo0 m) c main_arg5) shapeCasts_S128_S1x128 := by
    show StableHlo.after Gen.hostOps1 (Gen.V2 m (outsUpTo0 m) c) (Proc.devRef .tc main_v3) = _
    after_results; rfl
  rw [e, Gen.V2_of m (outsUpTo0 m) c main_arg5 (by decide), Gen.V1_of m c main_arg5 (by decide)]

/-- and no item so far has written an argument. -/
theorem entry1_arg (c : Dev nD) (r : Ref sig .tc) (h3 : r ∉ Gen.hostOps1_W) (h2 : r ∉ ([main_v2] : List (Ref sig .tc)))
    (h1 : r ∉ Gen.hostOps0_W) : entry1 m c r = m ((c : Thread nD τ).loc r) :=
  (Gen.V3_of m (outsUpTo0 m) c r h3).trans ((Gen.V2_of m (outsUpTo0 m) c r h2).trans (Gen.V1_of m c r h1))

/-- The result buffer is the broadcast of what region 1 left. -/
theorem result_v5 (c : Dev nD) :
    Gen.V5 m (outs m) c main_v5
      = broadcastInDim S1x10000x128 ![1, 2] bcast_S10000x128_S1x10000x128_1_2 ((dat1 (entry1 m) c).arrAt 4 cfg1.N) := by
  have e : Gen.V5 m (outs m) c main_v5
      = broadcastInDim S1x10000x128 ![1, 2] bcast_S10000x128_S1x10000x128_1_2 (Gen.V4 m (outs m) c main_v4) := by
    show StableHlo.after Gen.hostOps2 (Gen.V4 m (outs m) c) (Proc.devRef .tc main_v5) = _
    after_results
  rw [e]
  refine congrArg _ ?_
  show Function.update (Gen.V3 m (outs m) c) (Proc.devRef .tc main_v4) (outs m 4 main_v4 c) (Proc.devRef .tc main_v4) = _
  rw [Function.update_self, outs_four]

/-! ## The windows' arrays by name -/

/-- Region 1's adjacency, weights, input and bias row, in terms of the launch memory; its input is what region 0 left. -/
theorem win1_3_arr (c : Dev nD) : entry1 m c (Pipeline.arrRef spec1 3) = m ((c : Thread nD τ).loc main_arg1) :=
  entry1_arg m c main_arg1 (by decide) (by decide) (by decide)
theorem win1_1_arr (c : Dev nD) : entry1 m c (Pipeline.arrRef spec1 1) = m ((c : Thread nD τ).loc main_arg4) :=
  entry1_arg m c main_arg4 (by decide) (by decide) (by decide)
theorem win1_0_arr (c : Dev nD) : entry1 m c (Pipeline.arrRef spec1 0) = (dat0 (entry0 m) c).arrAt 4 cfg0.N :=
  entry1_v2 m c
theorem win1_2_arr (c : Dev nD) :
    (fun q : Fin 128 => entry1 m c (Pipeline.arrRef spec1 2) (ix2 0 q)) = fun q => m ((c : Thread nD τ).loc main_arg5) (ix1 q) :=
  funext fun q => (congrFun (entry1_v3 m c) (ix2 0 q)).trans (row_apply _ q)

/-- Region 0's adjacency, weights, input and bias row. -/
theorem win0_3_arr (c : Dev nD) : entry0 m c (Pipeline.arrRef spec0 3) = m ((c : Thread nD τ).loc main_arg1) :=
  entry0_arg m c main_arg1 (by decide)
theorem win0_1_arr (c : Dev nD) : entry0 m c (Pipeline.arrRef spec0 1) = m ((c : Thread nD τ).loc main_arg2) :=
  entry0_arg m c main_arg2 (by decide)
theorem win0_0_arr (c : Dev nD) : entry0 m c (Pipeline.arrRef spec0 0)
    = shapeCast S10000x128 (m ((c : Thread nD τ).loc main_arg0)) shapeCasts_S1x10000x128_S10000x128 :=
  entry0_v0 m c
theorem win0_2_arr (c : Dev nD) :
    (fun q : Fin 128 => entry0 m c (Pipeline.arrRef spec0 2) (ix2 0 q)) = fun q => m ((c : Thread nD τ).loc main_arg3) (ix1 q) :=
  funext fun q => (congrFun (entry0_v1 m c) (ix2 0 q)).trans (row_apply _ q)

/-! ## The result -/

/-- An array under a new leading axis of extent one reads back at the remaining coordinates. -/
theorem lead_axis (y : (⟨S10000x128, .f32⟩ : BufTy).Contents (Elt Ideal)) (i : S1x10000x128.Idx) :
    broadcastInDim S1x10000x128 ![1, 2] bcast_S10000x128_S1x10000x128_1_2 y i = y (ix2 (i 1) (i 2)) :=
  broadcastInDim_apply _ bcast_S10000x128_S1x10000x128_1_2 y i (ix2 (i 1) (i 2)) (fun a => match a with
    | ⟨0, _⟩ => by show (i 1).val = if (10000 : Nat) = 1 then 0 else (i 1).val; rw [if_neg (by decide)]
    | ⟨1, _⟩ => by show (i 2).val = if (128 : Nat) = 1 then 0 else (i 2).val; rw [if_neg (by decide)])

/-- The result buffer holds the two-layer network of the launch memory's arrays: layer 1 of (layer 0 of the input),
    under the leading axis the last host operation adds. -/
theorem kernel_result (c : Dev nD) :
    Gen.V5 m (outs m) c main_v5
      = Cert.Gcn.result (m ((c : Thread nD τ).loc main_arg1))
          (shapeCast S10000x128 (m ((c : Thread nD τ).loc main_arg0)) shapeCasts_S1x10000x128_S10000x128)
          (m ((c : Thread nD τ).loc main_arg2)) (fun q => m ((c : Thread nD τ).loc main_arg3) (ix1 q))
          (m ((c : Thread nD τ).loc main_arg4)) (fun q => m ((c : Thread nD τ).loc main_arg5) (ix1 q)) := by
  rw [result_v5, arr1_final (entry1 m) c]
  rw [win1_3_arr, win1_1_arr, win1_0_arr, win1_2_arr, arr0_final (entry0 m) c, win0_3_arr, win0_1_arr, win0_0_arr, win0_2_arr]
  funext i
  unfold Cert.Gcn.result Cert.Gcn.net
  exact lead_axis _ i

end Cert.KernelIdeal.Hand

end
-- ==== Proof.RefResult.lean ====
/-
  The reference program's result, read one operation at a time, is the specification's two-layer network.

  The reference computes, with the same grouping as the specification,
      feat  (k, q) = (∑ j, x (k, j) · W (j, q)) + b q                       (a contraction, then a broadcast bias added),
      layer (p, q) = max (∑ k, adj (p, k) · feat (k, q)) 0                   (a contraction, then a maximum with a broadcast zero),
  twice over one adjacency matrix, and returns the second layer under a leading axis of extent one. So no
  algebraic law is used: each stage is read at an index, the index maps of the contractions and broadcasts are
  identified with the coordinate constructors, and the zero word is the number zero.
-/
import proofs.«142951_g14259291422968_cont_week2b_117_5_alg».proof.Proof.Gen.ReferenceIdeal.Read
import proofs.«142951_g14259291422968_cont_week2b_117_5_alg».proof.Proof.Spec

noncomputable section

namespace Cert.ReferenceIdeal.Result

open Cert.ReferenceIdeal Cert.ReferenceIdeal.Gen Cert.ReferenceIdeal.Read Idealize.ShloMosaic Idealize.ShloMosaic.ValueIdx

/-! ## Index equations

Each contraction reads its left operand along a row and its right operand down a column; each broadcast drops the
axes it adds. At an index given by its coordinates these maps are the coordinate constructors. -/

/-- Row `p` of a nodes × channels left operand, at the contracted channel `j`. -/
theorem lidx_feat (p : Fin 10000) (q j : Fin 128) : lidx_main_v1 (ix2 p q) j = ix2 p j :=
  funext fun a => Fin.ext (by match a with | ⟨0, _⟩ => rfl | ⟨1, _⟩ => rfl)

/-- Column `q` of a channels × channels right operand, at the contracted channel `j`. -/
theorem ridx_feat (p : Fin 10000) (q j : Fin 128) : ridx_main_v1 (ix2 p q) j = ix2 j q :=
  funext fun a => Fin.ext (by match a with | ⟨0, _⟩ => rfl | ⟨1, _⟩ => rfl)

/-- Row `p` of the adjacency matrix, at the contracted node `k`. -/
theorem lidx_agg (p : Fin 10000) (q : Fin 128) (k : Fin 10000) : lidx_main_v5 (ix2 p q) k = ix2 p k :=
  funext fun a => Fin.ext (by match a with | ⟨0, _⟩ => rfl | ⟨1, _⟩ => rfl)

/-- Column `q` of the nodes × channels features, at the contracted node `k`. -/
theorem ridx_agg (p : Fin 10000) (q : Fin 128) (k : Fin 10000) : ridx_main_v5 (ix2 p q) k = ix2 k q :=
  funext fun a => Fin.ext (by match a with | ⟨0, _⟩ => rfl | ⟨1, _⟩ => rfl)

/-- The bias broadcast over nodes and then over its unit row reads the bias vector at the channel. -/
theorem idx_bias (p : Fin 10000) (q : Fin 128) : idx_main_v2 (idx_main_v3 (ix2 p q)) = ix1 q :=
  funext fun a => Fin.ext (by match a with | ⟨0, _⟩ => rfl)

/-- The same four maps and the same bias read for the second layer's contractions and broadcasts. -/
theorem lidx_feat' (p : Fin 10000) (q j : Fin 128) : lidx_main_v7 (ix2 p q) j = ix2 p j :=
  funext fun a => Fin.ext (by match a with | ⟨0, _⟩ => rfl | ⟨1, _⟩ => rfl)

theorem ridx_feat' (p : Fin 10000) (q j : Fin 128) : ridx_main_v7 (ix2 p q) j = ix2 j q :=
  funext fun a => Fin.ext (by match a with | ⟨0, _⟩ => rfl | ⟨1, _⟩ => rfl)

theorem lidx_agg' (p : Fin 10000) (q : Fin 128) (k : Fin 10000) : lidx_main_v11 (ix2 p q) k = ix2 p k :=
  funext fun a => Fin.ext (by match a with | ⟨0, _⟩ => rfl | ⟨1, _⟩ => rfl)

theorem ridx_agg' (p : Fin 10000) (q : Fin 128) (k : Fin 10000) : ridx_main_v11 (ix2 p q) k = ix2 k q :=
  funext fun a => Fin.ext (by match a with | ⟨0, _⟩ => rfl | ⟨1, _⟩ => rfl)

theorem idx_bias' (p : Fin 10000) (q : Fin 128) : idx_main_v8 (idx_main_v9 (ix2 p q)) = ix1 q :=
  funext fun a => Fin.ext (by match a with | ⟨0, _⟩ => rfl)

/-- The result's leading unit axis is dropped: entry `(a, p, q)` reads the second layer at `(p, q)`. -/
theorem idx_out (a : Fin 1) (p : Fin 10000) (q : Fin 128) : idx_main_v13 (ix3 a p q) = ix2 p q :=
  funext fun a => Fin.ext (by match a with | ⟨0, _⟩ => rfl | ⟨1, _⟩ => rfl)

/-! ## The first layer -/

/-- Node `k`'s features in channel `q`: the contraction of row `k` of the reshaped input with column `q` of the
    weights, plus the bias at `q`. -/
theorem feat1 (x0 : (⟨S1x10000x128, .f32⟩ : BufTy).Contents (Elt Ideal)) (x2 : (⟨S128x128, .f32⟩ : BufTy).Contents (Elt Ideal))
    (x3 : (⟨S128, .f32⟩ : BufTy).Contents (Elt Ideal)) (k : Fin 10000) (q : Fin 128) :
    val_main_v4 (F := Ideal) x0 x2 x3 (ix2 k q)
      = Cert.Gcn.feat (shapeCast S10000x128 x0 shapeCasts_S1x10000x128_S10000x128) x2 (fun q => x3 (ix1 q)) k q := by
  rw [val_main_v4_apply, val_main_v1_apply, val_main_v3_apply, val_main_v2_apply]
  simp only [lidx_feat, ridx_feat, idx_bias, Ideal.addf_def]
  rfl

/-- The first layer as an array: row `p` of the adjacency matrix against every node's features, clipped at zero. -/
theorem layer1 (x0 : (⟨S1x10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    val_main_v6 (F := Ideal) x0 x1 x2 x3
      = Cert.Gcn.layer x1 (shapeCast S10000x128 x0 shapeCasts_S1x10000x128_S10000x128) x2 (fun q => x3 (ix1 q)) := by
  funext i
  obtain ⟨p, q, rfl⟩ : ∃ (p : Fin 10000) (q : Fin 128), i = ix2 p q := ⟨i 0, i 1, eq_ix2 i⟩
  rw [val_main_v6_apply, val_main_v5_apply, val_main_call0_v0_apply, val_main_call0_cst_apply]
  simp only [lidx_agg, ridx_agg, feat1, Ideal.maximumf_def, Ideal.ofBits_def, Ideal.ofBits_zero_f32]
  rfl

/-! ## The second layer

The second layer's stages depend on the first layer only through its array, which stays unopened here. -/

/-- Node `k`'s second-layer features in channel `q`, over the first layer's array. -/
theorem feat2 (x0 : (⟨S1x10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (k : Fin 10000) (q : Fin 128) :
    val_main_v10 (F := Ideal) x0 x1 x2 x3 x4 x5 (ix2 k q)
      = Cert.Gcn.feat (val_main_v6 (F := Ideal) x0 x1 x2 x3) x4 (fun q => x5 (ix1 q)) k q := by
  rw [val_main_v10_apply, val_main_v7_apply, val_main_v9_apply, val_main_v8_apply]
  simp only [lidx_feat', ridx_feat', idx_bias', Ideal.addf_def]
  rfl

/-- The second layer as an array, over the first layer's array. -/
theorem layer2 (x0 : (⟨S1x10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v12 (F := Ideal) x0 x1 x2 x3 x4 x5
      = Cert.Gcn.layer x1 (val_main_v6 (F := Ideal) x0 x1 x2 x3) x4 (fun q => x5 (ix1 q)) := by
  funext i
  obtain ⟨p, q, rfl⟩ : ∃ (p : Fin 10000) (q : Fin 128), i = ix2 p q := ⟨i 0, i 1, eq_ix2 i⟩
  rw [val_main_v12_apply, val_main_v11_apply, val_main_call1_v0_apply, val_main_call1_cst_apply]
  simp only [lidx_agg', ridx_agg', feat2, Ideal.maximumf_def, Ideal.ofBits_def, Ideal.ofBits_zero_f32]
  rfl

/-! ## The result -/

/-- The reference's result is the two-layer network of its arguments: the adjacency matrix, the input with its
    leading unit axis dropped, and the two layers' weights and biases. -/
theorem ref_result (x0 : (⟨S1x10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    Cert.ReferenceIdeal.Read.val_main_v13 x0 x1 x2 x3 x4 x5
      = Cert.Gcn.result x1 (shapeCast S10000x128 x0 shapeCasts_S1x10000x128_S10000x128) x2 (fun q => x3 (ValueIdx.ix1 q))
          x4 (fun q => x5 (ValueIdx.ix1 q)) := by
  funext i
  obtain ⟨a, p, q, rfl⟩ : ∃ (a : Fin 1) (p : Fin 10000) (q : Fin 128), i = ix3 a p q := ⟨i 0, i 1, i 2, eq_ix3 i⟩
  rw [val_main_v13_apply, idx_out, layer2, layer1]
  rfl

end Cert.ReferenceIdeal.Result

end
-- ==== Proof.lean ====
/-
  The certificate of a two-layer graph convolution against its jnp reference.

  Both programs compute, over the extended reals, two layers of
      layer adj x W b (p, q) = max (∑ k, adj (p, k) · (∑ j, x (k, j) · W (j, q) + b q)) 0
  over one adjacency matrix (Proof/Spec.lean). The kernel runs each layer as a pipelined region of 25 grid points:
  the features x·W + b are computed once, at the first point, into a scratch buffer every point reads, and point t
  writes rows 400t … 400t+399 of the layer's output. Its narrowing of the features and of the adjacency tile to a
  shorter float format is the identity at the ideal instance, and each point contracts over all 10000 nodes at once,
  so the kernel's sums are the reference's sums, grouped the same way: no algebraic law is needed and the
  precondition is never opened.

  * the frames of the two kernel programs: each region's body runs at every point under an invariant that carries the
    scratch's contents from the first point on (Proof/IdealBody0.lean; region 1 and the word-level program are the same
    text under other names), the regions are records of the several-regions launch between valuations of the unscoped
    buffers (Proof/IdealRecords.lean);
  * the reference's frame is its generated run with the result dropped;
  * the ideal pass rewrote nothing, so there is nothing to preserve;
  * the value: the kernel's run with its result named (Proof/IdealRun.lean), the result as the specification's
    function (Proof/IdealValue0.lean: a region's 25 blocks are one array; Proof/IdealResult.lean: the two regions
    and the host operations composed), and the reference's term as the same function (Proof/RefResult.lean).
-/
import proofs.«142951_g14259291422968_cont_week2b_117_5_alg».proof.Defs
import proofs.«142951_g14259291422968_cont_week2b_117_5_alg».proof.Proof.Gen.Kernel
import proofs.«142951_g14259291422968_cont_week2b_117_5_alg».proof.Proof.Gen.KernelIdeal
import proofs.«142951_g14259291422968_cont_week2b_117_5_alg».proof.Proof.Gen.ReferenceIdeal
import proofs.«142951_g14259291422968_cont_week2b_117_5_alg».proof.Proof.Gen.ReferenceIdeal.Run
import proofs.«142951_g14259291422968_cont_week2b_117_5_alg».proof.Proof.Gen.ReferenceIdeal.Read
import proofs.«142951_g14259291422968_cont_week2b_117_5_alg».proof.Proof.Gen.Pre_finite_inputs
import proofs.«142951_g14259291422968_cont_week2b_117_5_alg».proof.Proof.BitsRecords
import proofs.«142951_g14259291422968_cont_week2b_117_5_alg».proof.Proof.IdealRun
import proofs.«142951_g14259291422968_cont_week2b_117_5_alg».proof.Proof.IdealResult
import proofs.«142951_g14259291422968_cont_week2b_117_5_alg».proof.Proof.RefResult
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel := fun m ρ _ => Cert.Kernel.Hand.frame m ρ

/-- So does the idealized kernel. -/
theorem frame_ideal : Cert.frame_KernelIdeal := fun m ρ _ => Cert.KernelIdeal.Hand.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the six arguments both programs end with the two-layer network of those arguments. -/
theorem algebraic : Cert.algebraic_KernelIdeal_ReferenceIdeal := by
  intro m ρ m' ρ' _ hagree
  refine ⟨fun c => Cert.Gcn.result
      (m ((c.tc : Thread Cert.KernelIdeal.nD Cert.KernelIdeal.τ).loc Cert.KernelIdeal.main_arg1))
      (shapeCast Cert.KernelIdeal.S10000x128 (m ((c.tc : Thread Cert.KernelIdeal.nD Cert.KernelIdeal.τ).loc Cert.KernelIdeal.main_arg0))
        Cert.KernelIdeal.Facts₀.shapeCasts_S1x10000x128_S10000x128)
      (m ((c.tc : Thread Cert.KernelIdeal.nD Cert.KernelIdeal.τ).loc Cert.KernelIdeal.main_arg2))
      (fun q => m ((c.tc : Thread Cert.KernelIdeal.nD Cert.KernelIdeal.τ).loc Cert.KernelIdeal.main_arg3) (ValueIdx.ix1 q))
      (m ((c.tc : Thread Cert.KernelIdeal.nD Cert.KernelIdeal.τ).loc Cert.KernelIdeal.main_arg4))
      (fun q => m ((c.tc : Thread Cert.KernelIdeal.nD Cert.KernelIdeal.τ).loc Cert.KernelIdeal.main_arg5) (ValueIdx.ix1 q)), ?_, ?_⟩
  · exact (θ_run Cert.KernelIdeal.defs _ _).mono
      (fun _ h c => ⟨(h c).1.trans (Cert.KernelIdeal.Hand.kernel_result m c), (h c).2⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v13_eq _ _ _ _ _ _).trans
      ((Cert.ReferenceIdeal.Result.ref_result _ _ _ _ _ _).trans ?_)
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
